-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x128 .f32) (main_arg15 : FVec F S128 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S384x256 .f32 := Host.absf main_arg12
  let main_cst_18 : FVec F S_ .f32 := constant S_ .f32 0x7F800000#32
  let main_v50 : FVec F S384x256 .f32 := broadcastInDim S384x256 ![] bcast_S_S384x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S257x256 .f32) (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S257x256 .f32 := Host.absf main_arg8
  let main_cst_10 : FVec F S_ .f32 := constant S_ .f32 0x7F800000#32
  let main_v30 : FVec F S257x256 .f32 := broadcastInDim S257x256 ![] bcast_S_S257x256 main_cst_10
  let main_v31 : IVec S257x256 1 := cmpf .olt main_v29 main_v30
  let main_c_11 : IVec S_ 1 := constantI S_ 1 1#1
  let main_v32 : IVec S_ 1 := (fun x v => Host.reduce IntOp.andi x v reducesTo_S257x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x1 .f32) (main_arg2 : IVec S800000 32) (main_arg3 : IVec S800000 32) (main_arg4 : FVec F S257x256 .f32) (main_arg5 : FVec F S256 .f32) (main_arg6 : FVec F S256x256 .f32) (main_arg7 : FVec F S256 .f32) (main_arg8 : FVec F S257x256 .f32) (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S257x256 .f32 := Host.absf main_arg4
  let main_cst_2 : FVec F S_ .f32 := constant S_ .f32 0x7F800000#32
  let main_v10 : FVec F S257x256 .f32 := broadcastInDim S257x256 ![] bcast_S_S257x256 main_cst_2
  let main_v11 : IVec S257x256 1 := cmpf .olt main_v9 main_v10
  let main_c_3 : IVec S_ 1 := constantI S_ 1 1#1
  let main_v12 : IVec S_ 1 := (fun x v => Host.reduce IntOp.andi x v reducesTo_S257x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩
abbrev S800000x128 : Shape := ⟨2, ![800000, 128]⟩
abbrev S128x256 : Shape := ⟨2, ![128, 256]⟩
abbrev S1x256 : Shape := ⟨2, ![1, 256]⟩
abbrev S800000x256 : Shape := ⟨2, ![800000, 256]⟩
abbrev S2000x128 : Shape := ⟨2, ![2000, 128]⟩
abbrev S2000x1 : Shape := ⟨2, ![2000, 1]⟩
abbrev S2000x256 : Shape := ⟨2, ![2000, 256]⟩
abbrev S50000x256 : Shape := ⟨2, ![50000, 256]⟩
abbrev S5000x256 : Shape := ⟨2, ![5000, 256]⟩
abbrev S5000x128 : Shape := ⟨2, ![5000, 128]⟩
abbrev S1x128 : Shape := ⟨2, ![1, 128]⟩

abbrev nBuf : Space → Nat
  | .hbm => 54
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S257x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S257x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S128x256, .f32⟩
  | .hbm, ⟨35, _⟩ => ⟨S128x256, .f32⟩
  | .hbm, ⟨36, _⟩ => ⟨S1x256, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S50000x256, .f32⟩
  | .hbm, ⟨51, _⟩ => ⟨S256x256, .f32⟩
  | .hbm, ⟨52, _⟩ => ⟨S128x256, .f32⟩
  | .hbm, ⟨53, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S128x256, .f32⟩
  | .local _ .vmem, ⟨13, _⟩ => ⟨S128x256, .f32⟩
  | .local _ .vmem, ⟨14, _⟩ => ⟨S1x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S5000x256, .f32⟩
  | .local _ .vmem, ⟨23, _⟩ => ⟨S5000x256, .f32⟩
  | .local _ .vmem, ⟨24, _⟩ => ⟨S5000x128, .f32⟩
  | .local _ .vmem, ⟨25, _⟩ => ⟨S5000x128, .f32⟩
  | .local _ .vmem, ⟨26, _⟩ => ⟨S256x256, .f32⟩
  | .local _ .vmem, ⟨27, _⟩ => ⟨S128x256, .f32⟩
  | .local _ .vmem, ⟨28, _⟩ => ⟨S256, .f32⟩
  | .local _ .vmem, ⟨29, _⟩ => ⟨S256x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S257x256_S128x256_0_0 : S257x256.Slices ![0, 0] S128x256
  slices_S257x256_S128x256_128_0 : S257x256.Slices ![128, 0] S128x256
  slices_S257x256_S1x256_256_0 : S257x256.Slices ![256, 0] S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  broadcasts_S2000x1_S2000x256 : S2000x1.Broadcasts S2000x256
  broadcasts_S1x256_S2000x256 : S1x256.Broadcasts S2000x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S384x256_S256x256_0_0 : S384x256.Slices ![0, 0] S256x256
  slices_S384x256_S128x256_256_0 : S384x256.Slices ![256, 0] S128x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x128_S5000x128_0_0 : ∀ a, (![0, 0] : Fin 2 → Nat) a + S5000x128.size a ≤ S5000x128.size a
  h_S5000x128 : 0 < S5000x128.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  broadcasts_S1x256_S5000x256 : S1x256.Broadcasts S5000x256
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S800000x128.size a
  hwx0_0 : ∀ i : grid0.Coords, EltTy.bits .f32 = 32 ∨ (Rect.block (s := S800000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S800000x128.size a
  hwx0_1 : ∀ i : grid0.Coords, EltTy.bits .f32 = 32 ∨ (Rect.block (s := S800000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S800000x1.size a
  hwx0_2 : ∀ i : grid0.Coords, EltTy.bits .f32 = 32 ∨ (Rect.block (s := S800000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .f32 = 32 ∨ (Rect.block (s := S128x256) S128x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x256.size a ≤ S800000x256.size a
  hwx0_15 : ∀ i : grid0.Coords, EltTy.bits .f32 = 32 ∨ (Rect.block (s := S800000x256) S2000x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x256.size a ≤ S800000x256.size a
  hwx0_16 : ∀ i : grid0.Coords, EltTy.bits .f32 = 32 ∨ (Rect.block (s := S800000x256) S2000x256.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S2000x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S2000x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩
abbrev S800000x128 : Shape := ⟨2, ![800000, 128]⟩
abbrev S800000x257 : Shape := ⟨2, ![800000, 257]⟩
abbrev S800000x256 : Shape := ⟨2, ![800000, 256]⟩
abbrev S1x256 : Shape := ⟨2, ![1, 256]⟩
abbrev S50000x256 : Shape := ⟨2, ![50000, 256]⟩
abbrev S50000x384 : Shape := ⟨2, ![50000, 384]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S257x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S257x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x257, .f32⟩
  | .hbm, ⟨35, _⟩ => ⟨S800000x256, .f32⟩
  | .hbm, ⟨36, _⟩ => ⟨S1x256, .f32⟩
  | .hbm, ⟨37, _⟩ => ⟨S800000x256, .f32⟩
  | .hbm, ⟨38, _⟩ => ⟨S800000x256, .f32⟩
  | .hbm, ⟨39, _⟩ => ⟨S_, .f32⟩
  | .hbm, ⟨40, _⟩ => ⟨S800000x256, .f32⟩
  | .hbm, ⟨41, _⟩ => ⟨S800000x256, .f32⟩
  | .hbm, ⟨42, _⟩ => ⟨S800000x256, .f32⟩
  | .hbm, ⟨43, _⟩ => ⟨S1x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S800000x257, .f32⟩
  | .hbm, ⟨51, _⟩ => ⟨S800000x256, .f32⟩
  | .hbm, ⟨52, _⟩ => ⟨S1x256, .f32⟩
  | .hbm, ⟨53, _⟩ => ⟨S800000x256, .f32⟩
  | .hbm, ⟨54, _⟩ => ⟨S800000x256, .f32⟩
  | .hbm, ⟨55, _⟩ => ⟨S_, .f32⟩
  | .hbm, ⟨56, _⟩ => ⟨S800000x256, .f32⟩
  | .hbm, ⟨57, _⟩ => ⟨S800000x256, .f32⟩
  | .hbm, ⟨58, _⟩ => ⟨S800000x256, .f32⟩
  | .hbm, ⟨59, _⟩ => ⟨S1x256, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S50000x384, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_cst : Ref sig .tc := ⟨.hbm, 72, rfl⟩
abbrev main_call2_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x1_S800000x257_d1 : Shape.Concatenates [S800000x128, S800000x128, S800000x1] S800000x257 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  concatenates_S50000x256_S50000x128_S50000x384_d1 : Shape.Concatenates [S50000x256, S50000x128] S50000x384 1
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x257_S257x256_S800000x256_1_0_0_1_n_n_wf : DotDims.WF S800000x257 S257x256 S800000x256 [1] [0] [0] [1] [] []
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  dot_S50000x384_S384x256_S50000x256_1_0_0_1_n_n_wf : DotDims.WF S50000x384 S384x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x256_S800000x256_1_0_0_1_n_n : DotDims S800000x257 S257x256 S800000x256 where
  lhsContracting := [1]
  rhsContracting := [0]
  lhsNonContracting := [0]
  rhsNonContracting := [1]
  lhsBatch := []
  rhsBatch := []
  wf := dot_S800000x257_S257x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NetSpec.lean ====
/-
  One message-passing layer of a graph network, at the ideal values: the mathematics both programs compute.

  An edge with endpoint states `a, b : ℝ̄^128` and feature `e` sends the message
      msg = relu (cat(a, b, e) · W₁ + b₁) · W₂ + b₂            (W₁ : 257 × 256, W₂ : 256 × 256),
  and a node with aggregated messages `g : ℝ̄^256` and state `x : ℝ̄^128` is updated to
      x + (relu (cat(g, x) · U₁ + c₁) · U₂ + c₂)               (U₁ : 384 × 256, U₂ : 256 × 128).
  The first layer of each network multiplies a concatenated row by a matrix. Read entry by entry that product is
  a sum over the concatenated axis, and a sum over `Fin (m + n)` is the sum over the first `m` indices plus the sum
  over the last `n`: so the product splits into one product per concatenated piece, each against its own band
  of rows of the matrix. Only commutativity and associativity of addition on the extended reals are used, so no
  finiteness of the entries is needed. The "joined" forms below sum over the concatenated axis; the "split" forms
  add the per-piece sums in the order (first piece + second piece) + last piece; `*_split` says they agree.
-/
import Idealize.ShloMosaic.PureOps.Ideal.Laws
import Idealize.ShloMosaic.Lib.ValueIdx
import Mathlib.Algebra.BigOperators.Fin

noncomputable section

namespace Cert.GraphNet

open Idealize.ShloMosaic Idealize.ShloMosaic.ValueIdx

/-- The float word `0x00000000` at the ideal values: what both programs' `relu` clamps against. It is never
    evaluated: the same word stands on both sides of every equation. -/
abbrev zeroF : EReal := Ideal.ofBits .f32 0x00000000#32

/-! ## Sums over a concatenated axis -/

/-- A sum over 257 = 128 + 128 + 1 indices, piece by piece. -/
theorem sum_257 (f : Fin 257 → EReal) :
    ∑ k : Fin 257, f k
      = ((∑ k : Fin 128, f ⟨k.val, by omega⟩) + ∑ k : Fin 128, f ⟨128 + k.val, by omega⟩) + f ⟨256, by omega⟩ := by
  rw [Fin.sum_univ_castSucc (n := 256) f]
  congr 1
  exact Fin.sum_univ_add (a := 128) (b := 128) (fun i : Fin (128 + 128) => f (Fin.castSucc i))

/-- A sum over 384 = 256 + 128 indices, piece by piece. -/
theorem sum_384 (f : Fin 384 → EReal) :
    ∑ k : Fin 384, f k = (∑ k : Fin 256, f ⟨k.val, by omega⟩) + ∑ k : Fin 128, f ⟨256 + k.val, by omega⟩ :=
  Fin.sum_univ_add (a := 256) (b := 128) (fun i : Fin (256 + 128) => f i)

/-! ## The edge network, one edge at a time -/

/-- The hidden layer of an edge's network before the clamp, SPLIT: the two endpoint states against their bands
    `Wa`, `Wb` of the first matrix, the feature against its last row `Wc`, then the bias. -/
def edgePreSplit (a b : Fin 128 → EReal) (e : EReal) (Wa Wb : Fin 128 → Fin 256 → EReal) (Wc b1 : Fin 256 → EReal)
    (j : Fin 256) : EReal :=
  (((∑ k : Fin 128, a k * Wa k j) + ∑ k : Fin 128, b k * Wb k j) + e * Wc j) + b1 j

/-- The same JOINED: the concatenated row `x = cat(a, b, e)` against the whole first matrix, then the bias. -/
def edgePreJoined (x : Fin 257 → EReal) (W1 : Fin 257 → Fin 256 → EReal) (b1 : Fin 256 → EReal) (j : Fin 256) : EReal :=
  (∑ k : Fin 257, x k * W1 k j) + b1 j

/-- The message from a hidden row `h` (before the clamp): clamp at zero, second matrix, bias. -/
def edgeOut (h : Fin 256 → EReal) (W2 : Fin 256 → Fin 256 → EReal) (b2 : Fin 256 → EReal) (q : Fin 256) : EReal :=
  (∑ j : Fin 256, max (h j) zeroF * W2 j q) + b2 q

/-- The joined hidden layer is the split one, when the row is the concatenation and the bands are the matrix's. -/
theorem edgePre_split (a b : Fin 128 → EReal) (e : EReal) (x : Fin 257 → EReal) (W1 : Fin 257 → Fin 256 → EReal)
    (Wa Wb : Fin 128 → Fin 256 → EReal) (Wc b1 : Fin 256 → EReal)
    (hxa : ∀ k : Fin 128, x ⟨k.val, by omega⟩ = a k) (hxb : ∀ k : Fin 128, x ⟨128 + k.val, by omega⟩ = b k)
    (hxe : x ⟨256, by omega⟩ = e)
    (hWa : ∀ (k : Fin 128) j, Wa k j = W1 ⟨k.val, by omega⟩ j) (hWb : ∀ (k : Fin 128) j, Wb k j = W1 ⟨128 + k.val, by omega⟩ j)
    (hWc : ∀ j, Wc j = W1 ⟨256, by omega⟩ j) (j : Fin 256) :
    edgePreJoined x W1 b1 j = edgePreSplit a b e Wa Wb Wc b1 j := by
  unfold edgePreJoined edgePreSplit
  rw [sum_257 fun k => x k * W1 k j, hxe, hWc j]
  congr 3
  · exact Finset.sum_congr rfl fun k _ => by rw [hxa k, hWa k j]
  · exact Finset.sum_congr rfl fun k _ => by rw [hxb k, hWb k j]

/-! ## The node network, one node at a time -/

/-- The hidden layer of a node's network before the clamp, SPLIT: the aggregate against the first 256 rows `Ua`
    of the first matrix, the node's state against the last 128 rows `Ub`, then the bias. -/
def nodePreSplit (g : Fin 256 → EReal) (x : Fin 128 → EReal) (Ua : Fin 256 → Fin 256 → EReal) (Ub : Fin 128 → Fin 256 → EReal)
    (c1 : Fin 256 → EReal) (j : Fin 256) : EReal :=
  ((∑ k : Fin 256, g k * Ua k j) + ∑ k : Fin 128, x k * Ub k j) + c1 j

/-- The same JOINED: the concatenated row `y = cat(g, x)` against the whole first matrix, then the bias. -/
def nodePreJoined (y : Fin 384 → EReal) (U1 : Fin 384 → Fin 256 → EReal) (c1 : Fin 256 → EReal) (j : Fin 256) : EReal :=
  (∑ k : Fin 384, y k * U1 k j) + c1 j

/-- The updated state from a hidden row `h` (before the clamp): clamp at zero, second matrix, bias, and the
    residual `x + ·`. -/
def nodeOut (x : Fin 128 → EReal) (h : Fin 256 → EReal) (U2 : Fin 256 → Fin 128 → EReal) (c2 : Fin 128 → EReal) (q : Fin 128) : EReal :=
  x q + ((∑ j : Fin 256, max (h j) zeroF * U2 j q) + c2 q)

theorem nodePre_split (g : Fin 256 → EReal) (x : Fin 128 → EReal) (y : Fin 384 → EReal) (U1 : Fin 384 → Fin 256 → EReal)
    (Ua : Fin 256 → Fin 256 → EReal) (Ub : Fin 128 → Fin 256 → EReal) (c1 : Fin 256 → EReal)
    (hyg : ∀ k : Fin 256, y ⟨k.val, by omega⟩ = g k) (hyx : ∀ k : Fin 128, y ⟨256 + k.val, by omega⟩ = x k)
    (hUa : ∀ (k : Fin 256) j, Ua k j = U1 ⟨k.val, by omega⟩ j) (hUb : ∀ (k : Fin 128) j, Ub k j = U1 ⟨256 + k.val, by omega⟩ j)
    (j : Fin 256) :
    nodePreJoined y U1 c1 j = nodePreSplit g x Ua Ub c1 j := by
  unfold nodePreJoined nodePreSplit
  rw [sum_384 fun k => y k * U1 k j]
  congr 2
  · exact Finset.sum_congr rfl fun k _ => by rw [hyg k, hUa k j]
  · exact Finset.sum_congr rfl fun k _ => by rw [hyx k, hUb k j]

/-! ## All edges and all nodes: the whole arrays

  Arrays are functions on index tuples; row `p` of an `[n, d]` array `A` is `fun k => A (ix2 p k)`. Each row of the
  result depends on the same row of the per-row operands and on the parameters: so a band of rows of the result is
  the same function of the same band of rows of the operands (`*_rows`: what lets a grid of row blocks be read as
  one array). -/

/-- All edges' messages, SPLIT form: from the endpoint-state arrays `A`, `B` (a row an edge), the feature column
    `Ef`, the two bands `Wa`, `Wb` and the last row `Wc` of the first matrix, and the rest of the parameters. -/
def edgeMsgs {n : ℕ} (A B : (⟨2, ![n, 128]⟩ : Shape).Idx → EReal) (Ef : (⟨2, ![n, 1]⟩ : Shape).Idx → EReal)
    (Wa Wb : (⟨2, ![128, 256]⟩ : Shape).Idx → EReal) (Wc : (⟨2, ![1, 256]⟩ : Shape).Idx → EReal)
    (b1 : (⟨1, ![256]⟩ : Shape).Idx → EReal) (W2 : (⟨2, ![256, 256]⟩ : Shape).Idx → EReal)
    (b2 : (⟨1, ![256]⟩ : Shape).Idx → EReal) : (⟨2, ![n, 256]⟩ : Shape).Idx → EReal := fun i =>
  edgeOut (edgePreSplit (fun k => A (ix2 (i 0) k)) (fun k => B (ix2 (i 0) k)) (Ef (ix2 (i 0) (0 : Fin 1)))
      (fun k j => Wa (ix2 k j)) (fun k j => Wb (ix2 k j)) (fun j => Wc (ix2 (0 : Fin 1) j)) (fun j => b1 (ix1 j)))
    (fun j q => W2 (ix2 j q)) (fun q => b2 (ix1 q)) (i 1)

theorem edgeMsgs_apply {n : ℕ} (A B : (⟨2, ![n, 128]⟩ : Shape).Idx → EReal) (Ef : (⟨2, ![n, 1]⟩ : Shape).Idx → EReal)
    (Wa Wb : (⟨2, ![128, 256]⟩ : Shape).Idx → EReal) (Wc : (⟨2, ![1, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (p : Fin n) (q : Fin 256) :
    edgeMsgs A B Ef Wa Wb Wc b1 W2 b2 (ix2 p q)
      = edgeOut (edgePreSplit (fun k => A (ix2 p k)) (fun k => B (ix2 p k)) (Ef (ix2 p (0 : Fin 1)))
          (fun k j => Wa (ix2 k j)) (fun k j => Wb (ix2 k j)) (fun j => Wc (ix2 (0 : Fin 1) j)) (fun j => b1 (ix1 j)))
        (fun j q => W2 (ix2 j q)) (fun q => b2 (ix1 q)) q := rfl

/-- Rows `ρ p` of all edges' messages are the messages of the rows `ρ p` of the operands. -/
theorem edgeMsgs_rows {n n' : ℕ} (ρ : Fin n' → Fin n)
    (A B : (⟨2, ![n, 128]⟩ : Shape).Idx → EReal) (Ef : (⟨2, ![n, 1]⟩ : Shape).Idx → EReal)
    (A' B' : (⟨2, ![n', 128]⟩ : Shape).Idx → EReal) (Ef' : (⟨2, ![n', 1]⟩ : Shape).Idx → EReal)
    (Wa Wb Wa' Wb' : (⟨2, ![128, 256]⟩ : Shape).Idx → EReal) (Wc Wc' : (⟨2, ![1, 256]⟩ : Shape).Idx → EReal)
    (b1 b1' : (⟨1, ![256]⟩ : Shape).Idx → EReal) (W2 W2' : (⟨2, ![256, 256]⟩ : Shape).Idx → EReal)
    (b2 b2' : (⟨1, ![256]⟩ : Shape).Idx → EReal)
    (hA : ∀ p k, A' (ix2 p k) = A (ix2 (ρ p) k)) (hB : ∀ p k, B' (ix2 p k) = B (ix2 (ρ p) k))
    (hE : ∀ p, Ef' (ix2 p (0 : Fin 1)) = Ef (ix2 (ρ p) (0 : Fin 1)))
    (hWa : Wa' = Wa) (hWb : Wb' = Wb) (hWc : Wc' = Wc) (hb1 : b1' = b1) (hW2 : W2' = W2) (hb2 : b2' = b2)
    (p : Fin n') (q : Fin 256) :
    edgeMsgs A' B' Ef' Wa' Wb' Wc' b1' W2' b2' (ix2 p q) = edgeMsgs A B Ef Wa Wb Wc b1 W2 b2 (ix2 (ρ p) q) := by
  subst hWa hWb hWc hb1 hW2 hb2
  simp only [edgeMsgs_apply, hA, hB, hE]

/-- All edges' messages, JOINED form: from the concatenated rows `X = cat(A, B, Ef)` and the whole first matrix. -/
def edgeMsgsJoined {n : ℕ} (X : (⟨2, ![n, 257]⟩ : Shape).Idx → EReal) (W1 : (⟨2, ![257, 256]⟩ : Shape).Idx → EReal)
    (b1 : (⟨1, ![256]⟩ : Shape).Idx → EReal) (W2 : (⟨2, ![256, 256]⟩ : Shape).Idx → EReal)
    (b2 : (⟨1, ![256]⟩ : Shape).Idx → EReal) : (⟨2, ![n, 256]⟩ : Shape).Idx → EReal := fun i =>
  edgeOut (edgePreJoined (fun k => X (ix2 (i 0) k)) (fun k j => W1 (ix2 k j)) (fun j => b1 (ix1 j)))
    (fun j q => W2 (ix2 j q)) (fun q => b2 (ix1 q)) (i 1)

theorem edgeMsgsJoined_apply {n : ℕ} (X : (⟨2, ![n, 257]⟩ : Shape).Idx → EReal) (W1 : (⟨2, ![257, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (p : Fin n) (q : Fin 256) :
    edgeMsgsJoined X W1 b1 W2 b2 (ix2 p q)
      = edgeOut (edgePreJoined (fun k => X (ix2 p k)) (fun k j => W1 (ix2 k j)) (fun j => b1 (ix1 j)))
        (fun j q => W2 (ix2 j q)) (fun q => b2 (ix1 q)) q := rfl

/-- The joined form is the split form, when `X` is the concatenation of `A`, `B`, `Ef` along the row and `Wa`, `Wb`,
    `Wc` are the bands of rows `0…127`, `128…255` and `256` of `W1`. -/
theorem edgeMsgs_joined {n : ℕ} (A B : (⟨2, ![n, 128]⟩ : Shape).Idx → EReal) (Ef : (⟨2, ![n, 1]⟩ : Shape).Idx → EReal)
    (X : (⟨2, ![n, 257]⟩ : Shape).Idx → EReal) (W1 : (⟨2, ![257, 256]⟩ : Shape).Idx → EReal)
    (Wa Wb : (⟨2, ![128, 256]⟩ : Shape).Idx → EReal) (Wc : (⟨2, ![1, 256]⟩ : Shape).Idx → EReal)
    (b1 : (⟨1, ![256]⟩ : Shape).Idx → EReal) (W2 : (⟨2, ![256, 256]⟩ : Shape).Idx → EReal)
    (b2 : (⟨1, ![256]⟩ : Shape).Idx → EReal)
    (hXa : ∀ (p : Fin n) (k : Fin 128), X (ix2 p (⟨k.val, by omega⟩ : Fin 257)) = A (ix2 p k))
    (hXb : ∀ (p : Fin n) (k : Fin 128), X (ix2 p (⟨128 + k.val, by omega⟩ : Fin 257)) = B (ix2 p k))
    (hXe : ∀ p : Fin n, X (ix2 p (⟨256, by omega⟩ : Fin 257)) = Ef (ix2 p (0 : Fin 1)))
    (hWa : ∀ (k : Fin 128) (j : Fin 256), Wa (ix2 k j) = W1 (ix2 (⟨k.val, by omega⟩ : Fin 257) j))
    (hWb : ∀ (k : Fin 128) (j : Fin 256), Wb (ix2 k j) = W1 (ix2 (⟨128 + k.val, by omega⟩ : Fin 257) j))
    (hWc : ∀ j : Fin 256, Wc (ix2 (0 : Fin 1) j) = W1 (ix2 (⟨256, by omega⟩ : Fin 257) j)) :
    edgeMsgsJoined X W1 b1 W2 b2 = edgeMsgs A B Ef Wa Wb Wc b1 W2 b2 := by
  funext i
  obtain ⟨p, q, rfl⟩ : ∃ (p : Fin n) (q : Fin 256), i = ix2 p q := ⟨i 0, i 1, eq_ix2 i⟩
  rw [edgeMsgsJoined_apply, edgeMsgs_apply]
  unfold edgeOut
  congr 1
  refine Finset.sum_congr rfl fun j _ => ?_
  rw [edgePre_split (fun k => A (ix2 p k)) (fun k => B (ix2 p k)) (Ef (ix2 p (0 : Fin 1))) (fun k => X (ix2 p k))
    (fun k j => W1 (ix2 k j)) (fun k j => Wa (ix2 k j)) (fun k j => Wb (ix2 k j)) (fun j => Wc (ix2 (0 : Fin 1) j))
    (fun j => b1 (ix1 j)) (hXa p) (hXb p) (hXe p) hWa hWb hWc j]

/-- All nodes' updated states, SPLIT form: from the aggregate `G` and the states `Xs` (a row a node), the two bands
    `Ua`, `Ub` of the first matrix, and the rest of the parameters. -/
def nodeUpd {n : ℕ} (G : (⟨2, ![n, 256]⟩ : Shape).Idx → EReal) (Xs : (⟨2, ![n, 128]⟩ : Shape).Idx → EReal)
    (Ua : (⟨2, ![256, 256]⟩ : Shape).Idx → EReal) (Ub : (⟨2, ![128, 256]⟩ : Shape).Idx → EReal)
    (c1 : (⟨1, ![256]⟩ : Shape).Idx → EReal) (U2 : (⟨2, ![256, 128]⟩ : Shape).Idx → EReal)
    (c2 : (⟨1, ![128]⟩ : Shape).Idx → EReal) : (⟨2, ![n, 128]⟩ : Shape).Idx → EReal := fun i =>
  nodeOut (fun q => Xs (ix2 (i 0) q))
    (nodePreSplit (fun k => G (ix2 (i 0) k)) (fun k => Xs (ix2 (i 0) k)) (fun k j => Ua (ix2 k j)) (fun k j => Ub (ix2 k j))
      (fun j => c1 (ix1 j)))
    (fun j q => U2 (ix2 j q)) (fun q => c2 (ix1 q)) (i 1)

theorem nodeUpd_apply {n : ℕ} (G : (⟨2, ![n, 256]⟩ : Shape).Idx → EReal) (Xs : (⟨2, ![n, 128]⟩ : Shape).Idx → EReal)
    (Ua : (⟨2, ![256, 256]⟩ : Shape).Idx → EReal) (Ub : (⟨2, ![128, 256]⟩ : Shape).Idx → EReal)
    (c1 : (⟨1, ![256]⟩ : Shape).Idx → EReal) (U2 : (⟨2, ![256, 128]⟩ : Shape).Idx → EReal)
    (c2 : (⟨1, ![128]⟩ : Shape).Idx → EReal) (p : Fin n) (q : Fin 128) :
    nodeUpd G Xs Ua Ub c1 U2 c2 (ix2 p q)
      = nodeOut (fun q => Xs (ix2 p q))
          (nodePreSplit (fun k => G (ix2 p k)) (fun k => Xs (ix2 p k)) (fun k j => Ua (ix2 k j)) (fun k j => Ub (ix2 k j))
            (fun j => c1 (ix1 j)))
          (fun j q => U2 (ix2 j q)) (fun q => c2 (ix1 q)) q := rfl

/-- Rows `ρ p` of all nodes' updates are the updates of the rows `ρ p` of the operands. -/
theorem nodeUpd_rows {n n' : ℕ} (ρ : Fin n' → Fin n)
    (G : (⟨2, ![n, 256]⟩ : Shape).Idx → EReal) (Xs : (⟨2, ![n, 128]⟩ : Shape).Idx → EReal)
    (G' : (⟨2, ![n', 256]⟩ : Shape).Idx → EReal) (Xs' : (⟨2, ![n', 128]⟩ : Shape).Idx → EReal)
    (Ua Ua' : (⟨2, ![256, 256]⟩ : Shape).Idx → EReal) (Ub Ub' : (⟨2, ![128, 256]⟩ : Shape).Idx → EReal)
    (c1 c1' : (⟨1, ![256]⟩ : Shape).Idx → EReal) (U2 U2' : (⟨2, ![256, 128]⟩ : Shape).Idx → EReal)
    (c2 c2' : (⟨1, ![128]⟩ : Shape).Idx → EReal)
    (hG : ∀ p k, G' (ix2 p k) = G (ix2 (ρ p) k)) (hX : ∀ p k, Xs' (ix2 p k) = Xs (ix2 (ρ p) k))
    (hUa : Ua' = Ua) (hUb : Ub' = Ub) (hc1 : c1' = c1) (hU2 : U2' = U2) (hc2 : c2' = c2)
    (p : Fin n') (q : Fin 128) :
    nodeUpd G' Xs' Ua' Ub' c1' U2' c2' (ix2 p q) = nodeUpd G Xs Ua Ub c1 U2 c2 (ix2 (ρ p) q) := by
  subst hUa hUb hc1 hU2 hc2
  simp only [nodeUpd_apply, hG, hX]

/-- All nodes' updated states, JOINED form: from the concatenated rows `Y = cat(G, Xs)` and the whole first matrix. -/
def nodeUpdJoined {n : ℕ} (Xs : (⟨2, ![n, 128]⟩ : Shape).Idx → EReal) (Y : (⟨2, ![n, 384]⟩ : Shape).Idx → EReal)
    (U1 : (⟨2, ![384, 256]⟩ : Shape).Idx → EReal) (c1 : (⟨1, ![256]⟩ : Shape).Idx → EReal)
    (U2 : (⟨2, ![256, 128]⟩ : Shape).Idx → EReal) (c2 : (⟨1, ![128]⟩ : Shape).Idx → EReal) :
    (⟨2, ![n, 128]⟩ : Shape).Idx → EReal := fun i =>
  nodeOut (fun q => Xs (ix2 (i 0) q))
    (nodePreJoined (fun k => Y (ix2 (i 0) k)) (fun k j => U1 (ix2 k j)) (fun j => c1 (ix1 j)))
    (fun j q => U2 (ix2 j q)) (fun q => c2 (ix1 q)) (i 1)

theorem nodeUpdJoined_apply {n : ℕ} (Xs : (⟨2, ![n, 128]⟩ : Shape).Idx → EReal) (Y : (⟨2, ![n, 384]⟩ : Shape).Idx → EReal)
    (U1 : (⟨2, ![384, 256]⟩ : Shape).Idx → EReal) (c1 : (⟨1, ![256]⟩ : Shape).Idx → EReal)
    (U2 : (⟨2, ![256, 128]⟩ : Shape).Idx → EReal) (c2 : (⟨1, ![128]⟩ : Shape).Idx → EReal) (p : Fin n) (q : Fin 128) :
    nodeUpdJoined Xs Y U1 c1 U2 c2 (ix2 p q)
      = nodeOut (fun q => Xs (ix2 p q))
          (nodePreJoined (fun k => Y (ix2 p k)) (fun k j => U1 (ix2 k j)) (fun j => c1 (ix1 j)))
          (fun j q => U2 (ix2 j q)) (fun q => c2 (ix1 q)) q := rfl

/-- The joined form is the split form, when `Y` is the concatenation of `G`, `Xs` along the row and `Ua`, `Ub` are
    the bands of rows `0…255` and `256…383` of `U1`. -/
theorem nodeUpd_joined {n : ℕ} (G : (⟨2, ![n, 256]⟩ : Shape).Idx → EReal) (Xs : (⟨2, ![n, 128]⟩ : Shape).Idx → EReal)
    (Y : (⟨2, ![n, 384]⟩ : Shape).Idx → EReal) (U1 : (⟨2, ![384, 256]⟩ : Shape).Idx → EReal)
    (Ua : (⟨2, ![256, 256]⟩ : Shape).Idx → EReal) (Ub : (⟨2, ![128, 256]⟩ : Shape).Idx → EReal)
    (c1 : (⟨1, ![256]⟩ : Shape).Idx → EReal) (U2 : (⟨2, ![256, 128]⟩ : Shape).Idx → EReal)
    (c2 : (⟨1, ![128]⟩ : Shape).Idx → EReal)
    (hYg : ∀ (p : Fin n) (k : Fin 256), Y (ix2 p (⟨k.val, by omega⟩ : Fin 384)) = G (ix2 p k))
    (hYx : ∀ (p : Fin n) (k : Fin 128), Y (ix2 p (⟨256 + k.val, by omega⟩ : Fin 384)) = Xs (ix2 p k))
    (hUa : ∀ (k : Fin 256) (j : Fin 256), Ua (ix2 k j) = U1 (ix2 (⟨k.val, by omega⟩ : Fin 384) j))
    (hUb : ∀ (k : Fin 128) (j : Fin 256), Ub (ix2 k j) = U1 (ix2 (⟨256 + k.val, by omega⟩ : Fin 384) j)) :
    nodeUpdJoined Xs Y U1 c1 U2 c2 = nodeUpd G Xs Ua Ub c1 U2 c2 := by
  funext i
  obtain ⟨p, q, rfl⟩ : ∃ (p : Fin n) (q : Fin 128), i = ix2 p q := ⟨i 0, i 1, eq_ix2 i⟩
  rw [nodeUpdJoined_apply, nodeUpd_apply]
  unfold nodeOut
  congr 2
  refine Finset.sum_congr rfl fun j _ => ?_
  rw [nodePre_split (fun k => G (ix2 p k)) (fun k => Xs (ix2 p k)) (fun k => Y (ix2 p k))
    (fun k j => U1 (ix2 k j)) (fun k j => Ua (ix2 k j)) (fun k j => Ub (ix2 k j)) (fun j => c1 (ix1 j))
    (hYg p) (hYx p) hUa hUb j]

end Cert.GraphNet

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibLayout.lean ====
/-
  Two small layout facts at coordinates, in the style of the library's own.

  A column `[a, 1]` broadcast to `[a, b]` repeats each row's one entry along the row: at `(p, c)` it reads the
  operand at `(p, 0)`. (The library has the companion for a row `[1, b]`.) And the all-zero offset vectors of
  rank one and two, as constant functions: the form the library's "whole buffer" lemmas ask for.
-/
import Idealize.ShloMosaic.Lib.Pipeline.Value
import Idealize.ShloMosaic.Lib.ValueIdx

namespace Cert.GNN

open Idealize.ShloMosaic Idealize.ShloMosaic.ValueIdx

variable {α : Type}

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a rank-two buffer. -/
theorem zero_off2 : (![0, 0] : Fin 2 → Nat) = fun _ => 0 := funext fun a => by fin_cases a <;> rfl

/-- The zero offset of a rank-one buffer. -/
theorem zero_off1 : (![0] : Fin 1 → Nat) = fun _ => 0 := funext fun a => by fin_cases a; rfl

end Cert.GNN
-- ==== Proof.EdgeBlock.lean ====
/-
  The edge kernel's arithmetic, entry by entry.

  On a block of 2000 edges the kernel forms, for edge `p` and output feature `q`, the message of the split edge
  network: the two endpoint rows against their bands of the first matrix (two products into zero accumulators),
  the feature column times the matrix's last row (a column and a row broadcast over the block), the bias, the
  clamp at zero, the second matrix and its bias. The casts to the narrow float format are the identity at the
  ideal values. The reverse direction is the same arithmetic with the two endpoint blocks exchanged and the
  reverse network's parameters.
-/
import proofs.«123507_j22874995818875_1_alg».proof.Proof.Gen.KernelIdeal.Skeleton
import proofs.«123507_j22874995818875_1_alg».proof.Proof.NetSpec
import proofs.«123507_j22874995818875_1_alg».proof.Proof.LibDot
import proofs.«123507_j22874995818875_1_alg».proof.Proof.LibLayout
import Idealize.ShloMosaic.Lib.ValueLayout

noncomputable section

namespace Cert.KernelIdeal.EdgeBlock

open Idealize.ShloMosaic Idealize.ShloMosaic.ValueIdx Cert.KernelIdeal Cert.KernelIdeal.Gen Cert.GraphNet Cert.GNN

/-- The block's products are plain rows-by-columns products. -/
theorem dot_in : dot_S2000x128_S128x256_S2000x256_1_0_0_1_n_n = DotDims.plain 2000 128 256 := rfl
theorem dot_hid : dot_S2000x256_S256x256_S2000x256_1_0_0_1_n_n = DotDims.plain 2000 256 256 := rfl

/-- The forward message of edge `p` of a block, feature `q`. -/
theorem fwd_apply (x0 x1 : Vec Ideal S2000x128 .f32) (x2 : Vec Ideal S2000x1 .f32) (x3 x4 : Vec Ideal S128x256 .f32)
    (x5 : Vec Ideal S1x256 .f32) (x6 : Vec Ideal S256 .f32) (x7 : Vec Ideal S256x256 .f32) (x8 : Vec Ideal S256 .f32)
    (p : Fin 2000) (q : Fin 256) :
    k0_pay4 x0 x1 x2 x3 x4 x5 x6 x7 x8 (ix2 p q)
      = edgeOut (edgePreSplit (fun k => x0 (ix2 p k)) (fun k => x1 (ix2 p k)) (x2 (ix2 p (0 : Fin 1)))
          (fun k j => x3 (ix2 k j)) (fun k j => x4 (ix2 k j)) (fun j => x5 (ix2 (0 : Fin 1) j)) (fun j => x6 (ix1 j)))
          (fun j q => x7 (ix2 j q)) (fun q => x8 (ix1 q)) q := by
  unfold k0_pay4 k0_pay2 k0_pay3 edgeOut edgePreSplit
  simp only [shapeCast_self, dot_in, dot_hid, matmul, addf_apply, mulf_apply, maximumf_apply, truncf_apply, broadcast_apply,
    matmul_plain_zero_apply, broadcastTo_1b_ab_apply, broadcastTo_a1_ab_apply, shapeCast_a_1a_apply]
  rfl

/-- The reverse message of edge `p` of a block, feature `q`: the endpoint blocks exchanged, the reverse network's
    parameters `x9 … x14`. -/
theorem rev_apply (x0 x1 : Vec Ideal S2000x128 .f32) (x2 : Vec Ideal S2000x1 .f32) (x9 x10 : Vec Ideal S128x256 .f32)
    (x11 : Vec Ideal S1x256 .f32) (x12 : Vec Ideal S256 .f32) (x13 : Vec Ideal S256x256 .f32) (x14 : Vec Ideal S256 .f32)
    (p : Fin 2000) (q : Fin 256) :
    k0_pay1 (k0_pay2 x0) (k0_pay3 x1) x2 x9 x10 x11 x12 x13 x14 (ix2 p q)
      = edgeOut (edgePreSplit (fun k => x1 (ix2 p k)) (fun k => x0 (ix2 p k)) (x2 (ix2 p (0 : Fin 1)))
          (fun k j => x9 (ix2 k j)) (fun k j => x10 (ix2 k j)) (fun j => x11 (ix2 (0 : Fin 1) j)) (fun j => x12 (ix1 j)))
          (fun j q => x13 (ix2 j q)) (fun q => x14 (ix1 q)) q := by
  unfold k0_pay1 k0_pay2 k0_pay3 edgeOut edgePreSplit
  simp only [shapeCast_self, dot_in, dot_hid, matmul, addf_apply, mulf_apply, maximumf_apply, truncf_apply, broadcast_apply,
    matmul_plain_zero_apply, broadcastTo_1b_ab_apply, broadcastTo_a1_ab_apply, shapeCast_a_1a_apply]
  rfl

/-- The block of forward messages is the split edge network on the block's 2000 edges. -/
theorem fwd_eq (x0 x1 : Vec Ideal S2000x128 .f32) (x2 : Vec Ideal S2000x1 .f32) (x3 x4 : Vec Ideal S128x256 .f32)
    (x5 : Vec Ideal S1x256 .f32) (x6 : Vec Ideal S256 .f32) (x7 : Vec Ideal S256x256 .f32) (x8 : Vec Ideal S256 .f32) :
    k0_pay4 x0 x1 x2 x3 x4 x5 x6 x7 x8 = edgeMsgs (n := 2000) x0 x1 x2 x3 x4 x5 x6 x7 x8 := by
  funext j
  obtain ⟨p, q, rfl⟩ : ∃ (p : Fin 2000) (q : Fin 256), j = ix2 p q := ⟨j 0, j 1, eq_ix2 j⟩
  rw [edgeMsgs_apply]
  exact fwd_apply x0 x1 x2 x3 x4 x5 x6 x7 x8 p q

/-- The block of reverse messages is the split edge network on the block's edges with the endpoints exchanged. -/
theorem rev_eq (x0 x1 : Vec Ideal S2000x128 .f32) (x2 : Vec Ideal S2000x1 .f32) (x9 x10 : Vec Ideal S128x256 .f32)
    (x11 : Vec Ideal S1x256 .f32) (x12 : Vec Ideal S256 .f32) (x13 : Vec Ideal S256x256 .f32) (x14 : Vec Ideal S256 .f32) :
    k0_pay1 (k0_pay2 x0) (k0_pay3 x1) x2 x9 x10 x11 x12 x13 x14 = edgeMsgs (n := 2000) x1 x0 x2 x9 x10 x11 x12 x13 x14 := by
  funext j
  obtain ⟨p, q, rfl⟩ : ∃ (p : Fin 2000) (q : Fin 256), j = ix2 p q := ⟨j 0, j 1, eq_ix2 j⟩
  rw [edgeMsgs_apply]
  exact rev_apply x0 x1 x2 x9 x10 x11 x12 x13 x14 p q

end Cert.KernelIdeal.EdgeBlock

end
-- ==== Proof.EdgeArray.lean ====
/-
  The edge kernel's two result arrays, whole.

  The kernel runs on a grid of 400 points; point `t` works on edges 2000·t … 2000·t + 1999: the two endpoint-state
  arrays, the feature column and both result arrays are cut into blocks of 2000 rows, and every parameter array is
  one block, the same at every point. So what point `t` writes back is the block of rows 2000·t … of ONE function
  of the arrays as the call finds them: the split edge network of the specification, in the forward direction for
  the first result, and with the endpoints exchanged and the reverse parameters for the second. The blocks tile the
  results (row r is in block r / 2000), so each result array ends holding that function. Everything is stated at
  any contents `V` of the buffers at the call's entry.
-/
import proofs.«123507_j22874995818875_1_alg».proof.Proof.Gen.KernelIdeal.Frame
import proofs.«123507_j22874995818875_1_alg».proof.Proof.EdgeBlock
import Idealize.ShloMosaic.Lib.Pipeline.Value

noncomputable section

namespace Cert.KernelIdeal.EdgeArray

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.GNN

variable (V : (c : Dev nD) → (b : Ref sig .tc) → Buf (Elt Ideal) ((c : Thread nD τ).loc b))

/-! ## The index maps, decided over the grid

  A row-tiled window's block index at point t is (t, 0); a parameter window's is zero on every axis. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-- Row p of point t's block is edge 2000·t + p. -/
def edgeOf (t : Fin cfg0.N) (p : Fin 2000) : Fin 800000 :=
  ⟨2000 * t.val + p.val, by have ht : t.val < 400 := N_0 ▸ t.isLt; have := p.isLt; omega⟩

/-! ## Coordinates of a block's entries in its array

  Entry y of a window's block at point t sits, on each axis, at (block index) × (block size) + y. The three
  tactics below do that arithmetic for the three kinds of window here: a block of rows of a matrix (block index
  (t, 0), given by the fact h), a whole matrix and a whole vector (block index zero). Each closes a goal
  "the block's embedding of these coordinates is that index", axis by axis. -/

/-- A block of n0 rows: row p, column k of the block is row n0·t + p, column k of the array. -/
local macro "coords_rows" W:ident h:ident n0:num n1:num t:term:max r:term:max k:term:max : tactic => `(tactic| (
  funext a
  apply Fin.ext
  match a with
  | ⟨0, _⟩ => (show ($W).index $t (0 : Fin 2) * $n0 + 1 * $r = $n0 * ($t).val + $r; rw [($h $t).1]; omega)
  | ⟨1, _⟩ => (show ($W).index $t (1 : Fin 2) * $n1 + 1 * $k = $k; rw [($h $t).2]; omega)))

/-- A whole matrix: the block's entry j is the array's entry j. -/
local macro "coords_whole2" W:ident h:ident n0:num n1:num t:term:max r:term:max k:term:max : tactic => `(tactic| (
  funext a
  apply Fin.ext
  match a with
  | ⟨0, _⟩ => (show ($W).index $t (0 : Fin 2) * $n0 + 1 * $r = $r; rw [($h $t).1]; omega)
  | ⟨1, _⟩ => (show ($W).index $t (1 : Fin 2) * $n1 + 1 * $k = $k; rw [($h $t).2]; omega)))

/-- A whole vector: the block's entry j is the array's entry j. -/
local macro "coords_whole1" W:ident h:ident n0:num t:term:max r:term:max : tactic => `(tactic| (
  funext a
  apply Fin.ext
  match a with
  | ⟨0, _⟩ => (show ($W).index $t (0 : Fin 1) * $n0 + 1 * $r = $r; rw [$h $t]; omega)))

/-! ## Each input window's block, read off its array -/

/-- The first endpoint-state block at point t is rows 2000·t … of the first gathered array. -/
theorem blk0 (c : Dev nD) (t : Fin cfg0.N) (p : Fin 2000) (k : Fin 128) :
    (iblk0 V c 0 t : Vec Ideal S2000x128 .f32) (ix2 p k) = (V c main_v6 : S800000x128.Idx → EReal) (ix2 (edgeOf t p) k) := by
  unfold iblk0; rw [View.read_apply]
  show V c main_v6 _ = V c main_v6 _
  congr 1
  coords_rows win0_0 idx0 2000 128 t p.val k.val

/-- The second endpoint-state block at point t is rows 2000·t … of the second gathered array. -/
theorem blk1 (c : Dev nD) (t : Fin cfg0.N) (p : Fin 2000) (k : Fin 128) :
    (iblk0 V c 1 t : Vec Ideal S2000x128 .f32) (ix2 p k) = (V c main_v13 : S800000x128.Idx → EReal) (ix2 (edgeOf t p) k) := by
  unfold iblk0; rw [View.read_apply]
  show V c main_v13 _ = V c main_v13 _
  congr 1
  coords_rows win0_1 idx1 2000 128 t p.val k.val

/-- The feature block at point t is rows 2000·t … of the feature column. -/
theorem blk2 (c : Dev nD) (t : Fin cfg0.N) (p : Fin 2000) (k : Fin 1) :
    (iblk0 V c 2 t : Vec Ideal S2000x1 .f32) (ix2 p k) = (V c main_arg1 : S800000x1.Idx → EReal) (ix2 (edgeOf t p) k) := by
  unfold iblk0; rw [View.read_apply]
  show V c main_arg1 _ = V c main_arg1 _
  congr 1
  coords_rows win0_2 idx2 2000 1 t p.val k.val

/-- The forward network's first band, whole at every point. -/
theorem blk3 (c : Dev nD) (t : Fin cfg0.N) :
    (iblk0 V c 3 t : Vec Ideal S128x256 .f32) = (V c main_v14 : S128x256.Idx → EReal) := by
  funext j
  unfold iblk0; rw [View.read_apply]
  show V c main_v14 _ = V c main_v14 j
  congr 1
  coords_whole2 win0_3 idx3 128 256 t (j 0).val (j 1).val

/-- The forward network's second band. -/
theorem blk4 (c : Dev nD) (t : Fin cfg0.N) :
    (iblk0 V c 4 t : Vec Ideal S128x256 .f32) = (V c main_v15 : S128x256.Idx → EReal) := by
  funext j
  unfold iblk0; rw [View.read_apply]
  show V c main_v15 _ = V c main_v15 j
  congr 1
  coords_whole2 win0_4 idx4 128 256 t (j 0).val (j 1).val

/-- The forward network's feature row. -/
theorem blk5 (c : Dev nD) (t : Fin cfg0.N) :
    (iblk0 V c 5 t : Vec Ideal S1x256 .f32) = (V c main_v16 : S1x256.Idx → EReal) := by
  funext j
  unfold iblk0; rw [View.read_apply]
  show V c main_v16 _ = V c main_v16 j
  congr 1
  coords_whole2 win0_5 idx5 1 256 t (j 0).val (j 1).val

/-- The forward network's first bias. -/
theorem blk6 (c : Dev nD) (t : Fin cfg0.N) :
    (iblk0 V c 6 t : Vec Ideal S256 .f32) = (V c main_arg5 : S256.Idx → EReal) := by
  funext j
  unfold iblk0; rw [View.read_apply]
  show V c main_arg5 _ = V c main_arg5 j
  congr 1
  coords_whole1 win0_6 idx6 256 t (j 0).val

/-- The forward network's second matrix. -/
theorem blk7 (c : Dev nD) (t : Fin cfg0.N) :
    (iblk0 V c 7 t : Vec Ideal S256x256 .f32) = (V c main_arg6 : S256x256.Idx → EReal) := by
  funext j
  unfold iblk0; rw [View.read_apply]
  show V c main_arg6 _ = V c main_arg6 j
  congr 1
  coords_whole2 win0_7 idx7 256 256 t (j 0).val (j 1).val

/-- The forward network's second bias. -/
theorem blk8 (c : Dev nD) (t : Fin cfg0.N) :
    (iblk0 V c 8 t : Vec Ideal S256 .f32) = (V c main_arg7 : S256.Idx → EReal) := by
  funext j
  unfold iblk0; rw [View.read_apply]
  show V c main_arg7 _ = V c main_arg7 j
  congr 1
  coords_whole1 win0_8 idx8 256 t (j 0).val

/-- The reverse network's first band. -/
theorem blk9 (c : Dev nD) (t : Fin cfg0.N) :
    (iblk0 V c 9 t : Vec Ideal S128x256 .f32) = (V c main_v17 : S128x256.Idx → EReal) := by
  funext j
  unfold iblk0; rw [View.read_apply]
  show V c main_v17 _ = V c main_v17 j
  congr 1
  coords_whole2 win0_9 idx9 128 256 t (j 0).val (j 1).val

/-- The reverse network's second band. -/
theorem blk10 (c : Dev nD) (t : Fin cfg0.N) :
    (iblk0 V c 10 t : Vec Ideal S128x256 .f32) = (V c main_v18 : S128x256.Idx → EReal) := by
  funext j
  unfold iblk0; rw [View.read_apply]
  show V c main_v18 _ = V c main_v18 j
  congr 1
  coords_whole2 win0_10 idx10 128 256 t (j 0).val (j 1).val

/-- The reverse network's feature row. -/
theorem blk11 (c : Dev nD) (t : Fin cfg0.N) :
    (iblk0 V c 11 t : Vec Ideal S1x256 .f32) = (V c main_v19 : S1x256.Idx → EReal) := by
  funext j
  unfold iblk0; rw [View.read_apply]
  show V c main_v19 _ = V c main_v19 j
  congr 1
  coords_whole2 win0_11 idx11 1 256 t (j 0).val (j 1).val

/-- The reverse network's first bias. -/
theorem blk12 (c : Dev nD) (t : Fin cfg0.N) :
    (iblk0 V c 12 t : Vec Ideal S256 .f32) = (V c main_arg9 : S256.Idx → EReal) := by
  funext j
  unfold iblk0; rw [View.read_apply]
  show V c main_arg9 _ = V c main_arg9 j
  congr 1
  coords_whole1 win0_12 idx12 256 t (j 0).val

/-- The reverse network's second matrix. -/
theorem blk13 (c : Dev nD) (t : Fin cfg0.N) :
    (iblk0 V c 13 t : Vec Ideal S256x256 .f32) = (V c main_arg10 : S256x256.Idx → EReal) := by
  funext j
  unfold iblk0; rw [View.read_apply]
  show V c main_arg10 _ = V c main_arg10 j
  congr 1
  coords_whole2 win0_13 idx13 256 256 t (j 0).val (j 1).val

/-- The reverse network's second bias. -/
theorem blk14 (c : Dev nD) (t : Fin cfg0.N) :
    (iblk0 V c 14 t : Vec Ideal S256 .f32) = (V c main_arg11 : S256.Idx → EReal) := by
  funext j
  unfold iblk0; rw [View.read_apply]
  show V c main_arg11 _ = V c main_arg11 j
  congr 1
  coords_whole1 win0_14 idx14 256 t (j 0).val

/-! ## The output windows' blocks -/

/-- The first result's block at point t lies at rows 2000·t … of its array. -/
theorem emb15 (t : Fin cfg0.N) (p : Fin 2000) (q : Fin 256) :
    (((cfg0.win 15).blk t).view.emb (ix2 p q) : S800000x256.Idx) = ix2 (edgeOf t p) q := by
  coords_rows win0_15 idx15 2000 256 t p.val q.val

/-- The second result's block at point t lies at rows 2000·t … of its array. -/
theorem emb16 (t : Fin cfg0.N) (p : Fin 2000) (q : Fin 256) :
    (((cfg0.win 16).blk t).view.emb (ix2 p q) : S800000x256.Idx) = ix2 (edgeOf t p) q := by
  coords_rows win0_16 idx16 2000 256 t p.val q.val

/-! ## What a point writes back -/

/-- The forward messages of all edges, from the arrays as the call finds them. -/
abbrev fwdMsgs (c : Dev nD) : S800000x256.Idx → EReal :=
  edgeMsgs (n := 800000) (V c main_v6) (V c main_v13) (V c main_arg1) (V c main_v14) (V c main_v15) (V c main_v16)
    (V c main_arg5) (V c main_arg6) (V c main_arg7)

/-- The reverse messages of all edges: the endpoints exchanged, the reverse network's parameters. -/
abbrev revMsgs (c : Dev nD) : S800000x256.Idx → EReal :=
  edgeMsgs (n := 800000) (V c main_v13) (V c main_v6) (V c main_arg1) (V c main_v17) (V c main_v18) (V c main_v19)
    (V c main_arg9) (V c main_arg10) (V c main_arg11)

/-- Point t writes back block t of the forward messages. -/
theorem flushed15 (c : Dev nD) (t : Fin cfg0.N) :
    (dat0 V c).flushed 15 t = ((cfg0.win 15).blk t).view.read (Elt Ideal) (fwdMsgs V c) := by
  show (cfg0.win 15).cut (grid0.coords t) ((dat0 V c).after 15 t) = _
  rw [after0_15]
  unfold out0_15
  rw [View.canon_unit_zero zero_off2]
  simp only [View.ld_unit_zero (S := S2000x128) zero_off2, View.ld_unit_zero (S := S2000x1) zero_off2,
    View.ld_unit_zero (S := S128x256) zero_off2, View.ld_unit_zero (S := S1x256) zero_off2,
    View.ld_unit_zero (S := S256x256) zero_off2, View.ld_unit_zero (S := S256) zero_off1]
  rw [EdgeBlock.fwd_eq]
  funext y
  obtain ⟨p, q, rfl⟩ : ∃ (p : Fin 2000) (q : Fin 256), y = ix2 p q := ⟨y 0, y 1, eq_ix2 y⟩
  show edgeMsgs (n := 2000) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q)
    = fwdMsgs V c (((cfg0.win 15).blk t).view.emb (ix2 p q))
  rw [emb15]
  exact edgeMsgs_rows (edgeOf t) _ _ _ _ _ _ _ _ _ _ _ _ _ _ _ _ _ _
    (blk0 V c t) (blk1 V c t) (fun p => blk2 V c t p 0) (blk3 V c t) (blk4 V c t) (blk5 V c t) (blk6 V c t) (blk7 V c t)
    (blk8 V c t) p q

/-- Point t writes back block t of the reverse messages. -/
theorem flushed16 (c : Dev nD) (t : Fin cfg0.N) :
    (dat0 V c).flushed 16 t = ((cfg0.win 16).blk t).view.read (Elt Ideal) (revMsgs V c) := by
  show (cfg0.win 16).cut (grid0.coords t) ((dat0 V c).after 16 t) = _
  rw [after0_16]
  unfold out0_16
  rw [View.canon_unit_zero zero_off2]
  simp only [View.ld_unit_zero (S := S2000x128) zero_off2, View.ld_unit_zero (S := S2000x1) zero_off2,
    View.ld_unit_zero (S := S128x256) zero_off2, View.ld_unit_zero (S := S1x256) zero_off2,
    View.ld_unit_zero (S := S256x256) zero_off2, View.ld_unit_zero (S := S256) zero_off1]
  rw [EdgeBlock.rev_eq]
  funext y
  obtain ⟨p, q, rfl⟩ : ∃ (p : Fin 2000) (q : Fin 256), y = ix2 p q := ⟨y 0, y 1, eq_ix2 y⟩
  show edgeMsgs (n := 2000) (iblk0 V c 1 t) (iblk0 V c 0 t) (iblk0 V c 2 t) (iblk0 V c 9 t) (iblk0 V c 10 t) (iblk0 V c 11 t)
      (iblk0 V c 12 t) (iblk0 V c 13 t) (iblk0 V c 14 t) (ix2 p q)
    = revMsgs V c (((cfg0.win 16).blk t).view.emb (ix2 p q))
  rw [emb16]
  exact edgeMsgs_rows (edgeOf t) _ _ _ _ _ _ _ _ _ _ _ _ _ _ _ _ _ _
    (blk1 V c t) (blk0 V c t) (fun p => blk2 V c t p 0) (blk9 V c t) (blk10 V c t) (blk11 V c t) (blk12 V c t) (blk13 V c t)
    (blk14 V c t) p q

/-! ## The blocks tile the results -/

/-- An index of the first result is in point t's block iff each coordinate is in the block's range on its axis. -/
theorem mem_blk15 (t : Fin cfg0.N) (i : S800000x256.Idx) :
    i ∈ ((cfg0.win 15).blk t).view.set ↔ ∀ a : Fin 2,
      win0_15.index t a * S2000x256.size a ≤ (i a).val ∧ (i a).val < win0_15.index t a * S2000x256.size a + S2000x256.size a := by
  show i ∈ ((View.whole main_v20_0).slice (win0_15.rect t)).set ↔ _
  rw [View.set_slice_whole, Rect.mem_set_unit]
  exact Iff.rfl

/-- The same for the second result. -/
theorem mem_blk16 (t : Fin cfg0.N) (i : S800000x256.Idx) :
    i ∈ ((cfg0.win 16).blk t).view.set ↔ ∀ a : Fin 2,
      win0_16.index t a * S2000x256.size a ≤ (i a).val ∧ (i a).val < win0_16.index t a * S2000x256.size a + S2000x256.size a := by
  show i ∈ ((View.whole main_v20_1).slice (win0_16.rect t)).set ↔ _
  rw [View.set_slice_whole, Rect.mem_set_unit]
  exact Iff.rfl

/-- The 400 row blocks tile the first result: row r lies in the block of point r / 2000. -/
theorem cover15 (i : S800000x256.Idx) :
    ∃ t : Fin cfg0.N, (cfg0.win 15).flush t = true ∧ i ∈ ((cfg0.win 15).blk t).view.set := by
  have hi0 : (i 0).val < 800000 := (i 0).isLt
  have hi1 : (i 1).val < 256 := (i 1).isLt
  have ht : (i 0).val / 2000 < cfg0.N := by rw [show cfg0.N = 400 from N_0]; omega
  refine ⟨⟨(i 0).val / 2000, ht⟩, flush0_15 _, ?_⟩
  rw [mem_blk15]
  intro a
  match a with
  | ⟨0, _⟩ =>
    show win0_15.index ⟨(i 0).val / 2000, ht⟩ (0 : Fin 2) * 2000 ≤ (i 0).val
      ∧ (i 0).val < win0_15.index ⟨(i 0).val / 2000, ht⟩ (0 : Fin 2) * 2000 + 2000
    rw [(idx15 _).1]
    show (i 0).val / 2000 * 2000 ≤ (i 0).val ∧ (i 0).val < (i 0).val / 2000 * 2000 + 2000
    omega
  | ⟨1, _⟩ =>
    show win0_15.index ⟨(i 0).val / 2000, ht⟩ (1 : Fin 2) * 256 ≤ (i 1).val
      ∧ (i 1).val < win0_15.index ⟨(i 0).val / 2000, ht⟩ (1 : Fin 2) * 256 + 256
    rw [(idx15 _).2]
    omega

/-- The 400 row blocks tile the second result. -/
theorem cover16 (i : S800000x256.Idx) :
    ∃ t : Fin cfg0.N, (cfg0.win 16).flush t = true ∧ i ∈ ((cfg0.win 16).blk t).view.set := by
  have hi0 : (i 0).val < 800000 := (i 0).isLt
  have hi1 : (i 1).val < 256 := (i 1).isLt
  have ht : (i 0).val / 2000 < cfg0.N := by rw [show cfg0.N = 400 from N_0]; omega
  refine ⟨⟨(i 0).val / 2000, ht⟩, flush0_16 _, ?_⟩
  rw [mem_blk16]
  intro a
  match a with
  | ⟨0, _⟩ =>
    show win0_16.index ⟨(i 0).val / 2000, ht⟩ (0 : Fin 2) * 2000 ≤ (i 0).val
      ∧ (i 0).val < win0_16.index ⟨(i 0).val / 2000, ht⟩ (0 : Fin 2) * 2000 + 2000
    rw [(idx16 _).1]
    show (i 0).val / 2000 * 2000 ≤ (i 0).val ∧ (i 0).val < (i 0).val / 2000 * 2000 + 2000
    omega
  | ⟨1, _⟩ =>
    show win0_16.index ⟨(i 0).val / 2000, ht⟩ (1 : Fin 2) * 256 ≤ (i 1).val
      ∧ (i 1).val < win0_16.index ⟨(i 0).val / 2000, ht⟩ (1 : Fin 2) * 256 + 256
    rw [(idx16 _).2]
    omega

/-! ## The result arrays after the call -/

/-- The first result array ends holding the forward messages of all edges. -/
theorem final15 (c : Dev nD) : (dat0 V c).arrAt 15 cfg0.N = fwdMsgs V c :=
  (dat0 V c).arrAt_eq_of_cover 15 (fwdMsgs V c) (fun t _ => flushed15 V c t) cover15

/-- The second result array ends holding the reverse messages of all edges. -/
theorem final16 (c : Dev nD) : (dat0 V c).arrAt 16 cfg0.N = revMsgs V c :=
  (dat0 V c).arrAt_eq_of_cover 16 (revMsgs V c) (fun t _ => flushed16 V c t) cover16

end Cert.KernelIdeal.EdgeArray

end
-- ==== Proof.NodeBlock.lean ====
/-
  The node kernel's arithmetic, entry by entry.

  On a block of 5000 nodes the kernel forms, for node `p` and state feature `q`, the update of the split node
  network: the aggregate row against the first band of the first matrix and the state row against the second band
  (two products into zero accumulators), the bias, the clamp at zero, the second matrix and its bias, and the
  residual sum with the state itself. The casts to the narrow float format are the identity at the ideal values.
-/
import proofs.«123507_j22874995818875_1_alg».proof.Proof.Gen.KernelIdeal.Skeleton
import proofs.«123507_j22874995818875_1_alg».proof.Proof.NetSpec
import proofs.«123507_j22874995818875_1_alg».proof.Proof.LibDot
import proofs.«123507_j22874995818875_1_alg».proof.Proof.LibLayout
import Idealize.ShloMosaic.Lib.ValueLayout

noncomputable section

namespace Cert.KernelIdeal.NodeBlock

open Idealize.ShloMosaic Idealize.ShloMosaic.ValueIdx Cert.KernelIdeal Cert.KernelIdeal.Gen Cert.GraphNet Cert.GNN

/-- The block's products are plain rows-by-columns products. -/
theorem dot_agg : dot_S5000x256_S256x256_S5000x256_1_0_0_1_n_n = DotDims.plain 5000 256 256 := rfl
theorem dot_state : dot_S5000x128_S128x256_S5000x256_1_0_0_1_n_n = DotDims.plain 5000 128 256 := rfl
theorem dot_out : dot_S5000x256_S256x128_S5000x128_1_0_0_1_n_n = DotDims.plain 5000 256 128 := rfl

/-- The updated state of node `p` of a block, feature `q`. -/
theorem upd_apply (v0 : Vec Ideal S5000x256 .f32) (v3 : Vec Ideal S5000x128 .f32) (v5 : Vec Ideal S256x256 .f32)
    (v8 : Vec Ideal S128x256 .f32) (v11 : Vec Ideal S256 .f32) (v12 : Vec Ideal S256x128 .f32) (v14 : Vec Ideal S128 .f32)
    (p : Fin 5000) (q : Fin 128) :
    k1_pay1 v0 v3 v5 v8 v11 v12 v14 (ix2 p q)
      = nodeOut (fun q => v3 (ix2 p q))
          (nodePreSplit (fun k => v0 (ix2 p k)) (fun k => v3 (ix2 p k)) (fun k j => v5 (ix2 k j)) (fun k j => v8 (ix2 k j))
            (fun j => v11 (ix1 j)))
          (fun j q => v12 (ix2 j q)) (fun q => v14 (ix1 q)) q := by
  unfold k1_pay1 nodeOut nodePreSplit
  simp only [shapeCast_self, dot_agg, dot_state, dot_out, matmul, addf_apply, maximumf_apply, truncf_apply, broadcast_apply,
    matmul_plain_zero_apply, broadcastTo_1b_ab_apply, shapeCast_a_1a_apply]
  rfl

/-- The block of updated states is the split node network on the block's 5000 nodes. -/
theorem upd_eq (v0 : Vec Ideal S5000x256 .f32) (v3 : Vec Ideal S5000x128 .f32) (v5 : Vec Ideal S256x256 .f32)
    (v8 : Vec Ideal S128x256 .f32) (v11 : Vec Ideal S256 .f32) (v12 : Vec Ideal S256x128 .f32) (v14 : Vec Ideal S128 .f32) :
    k1_pay1 v0 v3 v5 v8 v11 v12 v14 = nodeUpd (n := 5000) v0 v3 v5 v8 v11 v12 v14 := by
  funext j
  obtain ⟨p, q, rfl⟩ : ∃ (p : Fin 5000) (q : Fin 128), j = ix2 p q := ⟨j 0, j 1, eq_ix2 j⟩
  rw [nodeUpd_apply]
  exact upd_apply v0 v3 v5 v8 v11 v12 v14 p q

end Cert.KernelIdeal.NodeBlock

end
-- ==== Proof.NodeArray.lean ====
/-
  The node kernel's result array, whole.

  The kernel runs on a grid of 10 points; point `t` works on nodes 5000·t … 5000·t + 4999: the aggregate, the state
  array and the result are cut into blocks of 5000 rows, and every parameter array is one block, the same at every
  point. So what point `t` writes back is the block of rows 5000·t … of ONE function of the arrays as the call
  finds them: the split node network of the specification. The blocks tile the result (row r is in block r / 5000),
  so the result array ends holding that function. Everything is stated at any contents `V` of the buffers at the
  call's entry.
-/
import proofs.«123507_j22874995818875_1_alg».proof.Proof.Gen.KernelIdeal.Frame
import proofs.«123507_j22874995818875_1_alg».proof.Proof.NodeBlock
import Idealize.ShloMosaic.Lib.Pipeline.Value

noncomputable section

namespace Cert.KernelIdeal.NodeArray

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.GNN

variable (V : (c : Dev nD) → (b : Ref sig .tc) → Buf (Elt Ideal) ((c : Thread nD τ).loc b))

/-! ## The index maps, decided over the grid -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 1) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 1) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)

/-- Row p of point t's block is node 5000·t + p. -/
def nodeOf (t : Fin cfg1.N) (p : Fin 5000) : Fin 50000 :=
  ⟨5000 * t.val + p.val, by have ht : t.val < 10 := N_1 ▸ t.isLt; have := p.isLt; omega⟩

/-! ## Coordinates of a block's entries in its array

  Entry y of a window's block at point t sits, on each axis, at (block index) × (block size) + y: the arithmetic,
  axis by axis, for a block of rows of a matrix, a whole matrix and a whole vector. -/

/-- A block of n0 rows: row p, column k of the block is row n0·t + p, column k of the array. -/
local macro "coords_rows" W:ident h:ident n0:num n1:num t:term:max r:term:max k:term:max : tactic => `(tactic| (
  funext a
  apply Fin.ext
  match a with
  | ⟨0, _⟩ => (show ($W).index $t (0 : Fin 2) * $n0 + 1 * $r = $n0 * ($t).val + $r; rw [($h $t).1]; omega)
  | ⟨1, _⟩ => (show ($W).index $t (1 : Fin 2) * $n1 + 1 * $k = $k; rw [($h $t).2]; omega)))

/-- A whole matrix: the block's entry j is the array's entry j. -/
local macro "coords_whole2" W:ident h:ident n0:num n1:num t:term:max r:term:max k:term:max : tactic => `(tactic| (
  funext a
  apply Fin.ext
  match a with
  | ⟨0, _⟩ => (show ($W).index $t (0 : Fin 2) * $n0 + 1 * $r = $r; rw [($h $t).1]; omega)
  | ⟨1, _⟩ => (show ($W).index $t (1 : Fin 2) * $n1 + 1 * $k = $k; rw [($h $t).2]; omega)))

/-- A whole vector: the block's entry j is the array's entry j. -/
local macro "coords_whole1" W:ident h:ident n0:num t:term:max r:term:max : tactic => `(tactic| (
  funext a
  apply Fin.ext
  match a with
  | ⟨0, _⟩ => (show ($W).index $t (0 : Fin 1) * $n0 + 1 * $r = $r; rw [$h $t]; omega)))

/-! ## Each input window's block, read off its array -/

/-- The aggregate's block at point t is rows 5000·t … of the aggregate. -/
theorem blk0 (c : Dev nD) (t : Fin cfg1.N) (p : Fin 5000) (k : Fin 256) :
    (iblk1 V c 0 t : Vec Ideal S5000x256 .f32) (ix2 p k) = (V c main_v27 : S50000x256.Idx → EReal) (ix2 (nodeOf t p) k) := by
  unfold iblk1; rw [View.read_apply]
  show V c main_v27 _ = V c main_v27 _
  congr 1
  coords_rows win1_0 idx0 5000 256 t p.val k.val

/-- The state block at point t is rows 5000·t … of the node states. -/
theorem blk1 (c : Dev nD) (t : Fin cfg1.N) (p : Fin 5000) (k : Fin 128) :
    (iblk1 V c 1 t : Vec Ideal S5000x128 .f32) (ix2 p k) = (V c main_arg0 : S50000x128.Idx → EReal) (ix2 (nodeOf t p) k) := by
  unfold iblk1; rw [View.read_apply]
  show V c main_arg0 _ = V c main_arg0 _
  congr 1
  coords_rows win1_1 idx1 5000 128 t p.val k.val

/-- The node network's first band, whole at every point. -/
theorem blk2 (c : Dev nD) (t : Fin cfg1.N) :
    (iblk1 V c 2 t : Vec Ideal S256x256 .f32) = (V c main_v28 : S256x256.Idx → EReal) := by
  funext j
  unfold iblk1; rw [View.read_apply]
  show V c main_v28 _ = V c main_v28 j
  congr 1
  coords_whole2 win1_2 idx2 256 256 t (j 0).val (j 1).val

/-- The node network's second band. -/
theorem blk3 (c : Dev nD) (t : Fin cfg1.N) :
    (iblk1 V c 3 t : Vec Ideal S128x256 .f32) = (V c main_v29 : S128x256.Idx → EReal) := by
  funext j
  unfold iblk1; rw [View.read_apply]
  show V c main_v29 _ = V c main_v29 j
  congr 1
  coords_whole2 win1_3 idx3 128 256 t (j 0).val (j 1).val

/-- The node network's first bias. -/
theorem blk4 (c : Dev nD) (t : Fin cfg1.N) :
    (iblk1 V c 4 t : Vec Ideal S256 .f32) = (V c main_arg13 : S256.Idx → EReal) := by
  funext j
  unfold iblk1; rw [View.read_apply]
  show V c main_arg13 _ = V c main_arg13 j
  congr 1
  coords_whole1 win1_4 idx4 256 t (j 0).val

/-- The node network's second matrix. -/
theorem blk5 (c : Dev nD) (t : Fin cfg1.N) :
    (iblk1 V c 5 t : Vec Ideal S256x128 .f32) = (V c main_arg14 : S256x128.Idx → EReal) := by
  funext j
  unfold iblk1; rw [View.read_apply]
  show V c main_arg14 _ = V c main_arg14 j
  congr 1
  coords_whole2 win1_5 idx5 256 128 t (j 0).val (j 1).val

/-- The node network's second bias. -/
theorem blk6 (c : Dev nD) (t : Fin cfg1.N) :
    (iblk1 V c 6 t : Vec Ideal S128 .f32) = (V c main_arg15 : S128.Idx → EReal) := by
  funext j
  unfold iblk1; rw [View.read_apply]
  show V c main_arg15 _ = V c main_arg15 j
  congr 1
  coords_whole1 win1_6 idx6 128 t (j 0).val

/-! ## The output window's block -/

/-- The result's block at point t lies at rows 5000·t … of its array. -/
theorem emb7 (t : Fin cfg1.N) (p : Fin 5000) (q : Fin 128) :
    (((cfg1.win 7).blk t).view.emb (ix2 p q) : S50000x128.Idx) = ix2 (nodeOf t p) q := by
  coords_rows win1_7 idx7 5000 128 t p.val q.val

/-! ## What a point writes back -/

/-- The updated states of all nodes, from the arrays as the call finds them. -/
abbrev updated (c : Dev nD) : S50000x128.Idx → EReal :=
  nodeUpd (n := 50000) (V c main_v27) (V c main_arg0) (V c main_v28) (V c main_v29) (V c main_arg13) (V c main_arg14)
    (V c main_arg15)

/-- Point t writes back block t of the updated states. -/
theorem flushed7 (c : Dev nD) (t : Fin cfg1.N) :
    (dat1 V c).flushed 7 t = ((cfg1.win 7).blk t).view.read (Elt Ideal) (updated V c) := by
  show (cfg1.win 7).cut (grid1.coords t) ((dat1 V c).after 7 t) = _
  rw [after1_7]
  unfold out1_7
  rw [View.canon_unit_zero zero_off2]
  simp only [View.ld_unit_zero (S := S5000x256) zero_off2, View.ld_unit_zero (S := S5000x128) zero_off2,
    View.ld_unit_zero (S := S256x256) zero_off2, View.ld_unit_zero (S := S128x256) zero_off2,
    View.ld_unit_zero (S := S256x128) zero_off2, View.ld_unit_zero (S := S256) zero_off1,
    View.ld_unit_zero (S := S128) zero_off1]
  rw [NodeBlock.upd_eq]
  funext y
  obtain ⟨p, q, rfl⟩ : ∃ (p : Fin 5000) (q : Fin 128), y = ix2 p q := ⟨y 0, y 1, eq_ix2 y⟩
  show nodeUpd (n := 5000) (iblk1 V c 0 t) (iblk1 V c 1 t) (iblk1 V c 2 t) (iblk1 V c 3 t) (iblk1 V c 4 t) (iblk1 V c 5 t)
      (iblk1 V c 6 t) (ix2 p q)
    = updated V c (((cfg1.win 7).blk t).view.emb (ix2 p q))
  rw [emb7]
  exact nodeUpd_rows (nodeOf t) _ _ _ _ _ _ _ _ _ _ _ _ _ _
    (blk0 V c t) (blk1 V c t) (blk2 V c t) (blk3 V c t) (blk4 V c t) (blk5 V c t) (blk6 V c t) p q

/-! ## The blocks tile the result -/

/-- An index of the result is in point t's block iff each coordinate is in the block's range on its axis. -/
theorem mem_blk7 (t : Fin cfg1.N) (i : S50000x128.Idx) :
    i ∈ ((cfg1.win 7).blk t).view.set ↔ ∀ a : Fin 2,
      win1_7.index t a * S5000x128.size a ≤ (i a).val ∧ (i a).val < win1_7.index t a * S5000x128.size a + S5000x128.size a := by
  show i ∈ ((View.whole main_v30).slice (win1_7.rect t)).set ↔ _
  rw [View.set_slice_whole, Rect.mem_set_unit]
  exact Iff.rfl

/-- The 10 row blocks tile the result: row r lies in the block of point r / 5000. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := by rw [show cfg1.N = 10 from N_1]; omega
  refine ⟨⟨(i 0).val / 5000, ht⟩, flush1_7 _, ?_⟩
  rw [mem_blk7]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [(idx7 _).1]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [(idx7 _).2]
    omega

/-! ## The result array after the call -/

/-- The result array ends holding the updated states of all nodes. -/
theorem final7 (c : Dev nD) : (dat1 V c).arrAt 7 cfg1.N = updated V c :=
  (dat1 V c).arrAt_eq_of_cover 7 (updated V c) (fun t _ => flushed7 V c t) cover7

end Cert.KernelIdeal.NodeArray

end
-- ==== Proof.NetProgram.lean ====
/-
  The whole layer as ONE function of the sixteen argument arrays.

  Endpoint states are gathered by the edges' endpoint indices (a negative index wraps around once, the usual convention
  for indexing from the end, before the gather); the forward messages are summed into their target nodes and the reverse messages into
  their source nodes (scatter-adds into zero arrays), the two aggregates are added, and the node network updates the
  states. The gather and the scatter-add are kept as the host operations they are: both programs apply the same ones
  to the same operands, so nothing about them is ever opened. The two networks are the specification's split forms,
  on the bands of rows the program slices out of the first matrices.
-/
import proofs.«123507_j22874995818875_1_alg».proof.Proof.Gen.KernelIdeal
import proofs.«123507_j22874995818875_1_alg».proof.Proof.NetSpec
import Idealize.ShloMosaic.PureOps.Ideal

noncomputable section

namespace Cert.KernelIdeal.Layer

open Idealize.ShloMosaic Cert.KernelIdeal Cert.KernelIdeal.Gen Cert.GraphNet

/-- An index array with negative entries wrapped around once (i < 0 ↦ i + 50000), as a column. -/
def wrapped (ix : S800000.Idx → BitVec 32) : S800000x1.Idx → BitVec 32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- The node states gathered at an index array: one row an edge. -/
def gathered (x : S50000x128.Idx → EReal) (ix : S800000.Idx → BitVec 32) : S800000x128.Idx → EReal :=
  Host.gather gather_S50000x128_S800000x1_S800000x128_1_0_n_n_0_1_1128 x (wrapped ix)

/-- Messages summed into the nodes an index array names. -/
def aggregated (ix : S800000.Idx → BitVec 32) (msgs : S800000x256.Idx → EReal) : S50000x256.Idx → EReal :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 ix) msgs

/-- The messages of all edges in one direction: endpoint states gathered at \`src\` then \`dst\`, the network with
    first matrix \`W1\` (cut into its three bands), bias \`b1\`, second matrix \`W2\`, bias \`b2\`. -/
def messages (x : S50000x128.Idx → EReal) (ef : S800000x1.Idx → EReal) (src dst : S800000.Idx → BitVec 32)
    (W1 : S257x256.Idx → EReal) (b1 : S256.Idx → EReal) (W2 : S256x256.Idx → EReal) (b2 : S256.Idx → EReal) :
    S800000x256.Idx → EReal :=
  edgeMsgs (n := 800000) (gathered x src) (gathered x dst) ef
    (extractStridedSlice S128x256 ![0, 0] W1 slices_S257x256_S128x256_0_0)
    (extractStridedSlice S128x256 ![128, 0] W1 slices_S257x256_S128x256_128_0)
    (extractStridedSlice S1x256 ![256, 0] W1 slices_S257x256_S1x256_256_0) b1 W2 b2

/-- The aggregate of both directions: forward messages into the targets, reverse messages into the sources. -/
def aggregate (x : S50000x128.Idx → EReal) (ef : S800000x1.Idx → EReal) (from_ to_ : S800000.Idx → BitVec 32)
    (W1 : S257x256.Idx → EReal) (b1 : S256.Idx → EReal) (W2 : S256x256.Idx → EReal) (b2 : S256.Idx → EReal)
    (R1 : S257x256.Idx → EReal) (r1 : S256.Idx → EReal) (R2 : S256x256.Idx → EReal) (r2 : S256.Idx → EReal) :
    S50000x256.Idx → EReal :=
  addf (F := Ideal) (φ := .f32) (aggregated to_ (messages x ef from_ to_ W1 b1 W2 b2))
    (aggregated from_ (messages x ef to_ from_ R1 r1 R2 r2))

/-- The layer: the updated node states. -/
def layer (x : S50000x128.Idx → EReal) (ef : S800000x1.Idx → EReal) (from_ to_ : S800000.Idx → BitVec 32)
    (W1 : S257x256.Idx → EReal) (b1 : S256.Idx → EReal) (W2 : S256x256.Idx → EReal) (b2 : S256.Idx → EReal)
    (R1 : S257x256.Idx → EReal) (r1 : S256.Idx → EReal) (R2 : S256x256.Idx → EReal) (r2 : S256.Idx → EReal)
    (U1 : S384x256.Idx → EReal) (c1 : S256.Idx → EReal) (U2 : S256x128.Idx → EReal) (c2 : S128.Idx → EReal) :
    S50000x128.Idx → EReal :=
  nodeUpd (n := 50000) (aggregate x ef from_ to_ W1 b1 W2 b2 R1 r1 R2 r2) x
    (extractStridedSlice S256x256 ![0, 0] U1 slices_S384x256_S256x256_0_0)
    (extractStridedSlice S128x256 ![256, 0] U1 slices_S384x256_S128x256_256_0) c1 U2 c2

end Cert.KernelIdeal.Layer

end
-- ==== Proof.KernelValue.lean ====
/-
  What the kernel program computes: the layer of its sixteen launch arrays.

  The program is four stretches: host operations (the two gathers and the slices of the edge networks' first
  matrices), the edge call, host operations (the two scatter-adds, their sum, the slices of the node network's
  first matrix), the node call. Reading back from the end: the result array is what the node call leaves, the node
  network of the arrays at its entry; of those the aggregate is the second stretch's sum of scatter-adds of what the
  edge call left, the two message arrays, the edge networks of the arrays at ITS entry; and those are the first
  stretch's gathers and slices of the launch arrays. No stretch writes an argument, so wherever an argument is read
  it still holds its launch contents.
-/
import proofs.«123507_j22874995818875_1_alg».proof.Proof.Gen.KernelIdeal.Frame
import proofs.«123507_j22874995818875_1_alg».proof.Proof.EdgeArray
import proofs.«123507_j22874995818875_1_alg».proof.Proof.NodeArray
import proofs.«123507_j22874995818875_1_alg».proof.Proof.NetProgram
import proofs.«123507_j22874995818875_1_alg».proof.Proof.KernelRun
import Idealize.ShloMosaic.Lib.StableHlo.Run

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Layer Cert.GraphNet

variable (m : (ℓ : Loc nD τ sig) → Buf (Elt Ideal) ℓ) (ρ : Dev nD → PrngReg)

/-- A buffer's launch contents on core c. -/
abbrev at0 (c : Dev nD) (b : Ref sig .tc) : Buf (Elt Ideal) ((c.tc : Thread nD τ).loc b) := m ((c.tc : Thread nD τ).loc b)

/-! ## The first stretch: what the edge call finds -/

theorem V1_v6 (c : Dev nD) : (V1 m ρ c main_v6 : S800000x128.Idx → EReal) = gathered (at0 m c main_arg0) (at0 m c main_arg2) := by
  show StableHlo.after hostOps0 (W0 m ρ c) (Proc.devRef .tc main_v6) = _
  unfold gathered wrapped
  after_results

theorem V1_v13 (c : Dev nD) : (V1 m ρ c main_v13 : S800000x128.Idx → EReal) = gathered (at0 m c main_arg0) (at0 m c main_arg3) := by
  show StableHlo.after hostOps0 (W0 m ρ c) (Proc.devRef .tc main_v13) = _
  unfold gathered wrapped
  after_results_simp

theorem V1_arg1 (c : Dev nD) : (V1 m ρ c main_arg1 : S800000x1.Idx → EReal) = at0 m c main_arg1 := by
  show StableHlo.after hostOps0 (W0 m ρ c) (Proc.devRef .tc main_arg1) = _
  after_results

theorem V1_v14 (c : Dev nD) : (V1 m ρ c main_v14 : S128x256.Idx → EReal)
    = extractStridedSlice S128x256 ![0, 0] (at0 m c main_arg4) slices_S257x256_S128x256_0_0 := by
  show StableHlo.after hostOps0 (W0 m ρ c) (Proc.devRef .tc main_v14) = _
  after_results

theorem V1_v15 (c : Dev nD) : (V1 m ρ c main_v15 : S128x256.Idx → EReal)
    = extractStridedSlice S128x256 ![128, 0] (at0 m c main_arg4) slices_S257x256_S128x256_128_0 := by
  show StableHlo.after hostOps0 (W0 m ρ c) (Proc.devRef .tc main_v15) = _
  after_results

theorem V1_v16 (c : Dev nD) : (V1 m ρ c main_v16 : S1x256.Idx → EReal)
    = extractStridedSlice S1x256 ![256, 0] (at0 m c main_arg4) slices_S257x256_S1x256_256_0 := by
  show StableHlo.after hostOps0 (W0 m ρ c) (Proc.devRef .tc main_v16) = _
  after_results

theorem V1_arg5 (c : Dev nD) : (V1 m ρ c main_arg5 : S256.Idx → EReal) = at0 m c main_arg5 := by
  show StableHlo.after hostOps0 (W0 m ρ c) (Proc.devRef .tc main_arg5) = _
  after_results

theorem V1_arg6 (c : Dev nD) : (V1 m ρ c main_arg6 : S256x256.Idx → EReal) = at0 m c main_arg6 := by
  show StableHlo.after hostOps0 (W0 m ρ c) (Proc.devRef .tc main_arg6) = _
  after_results

theorem V1_arg7 (c : Dev nD) : (V1 m ρ c main_arg7 : S256.Idx → EReal) = at0 m c main_arg7 := by
  show StableHlo.after hostOps0 (W0 m ρ c) (Proc.devRef .tc main_arg7) = _
  after_results

theorem V1_v17 (c : Dev nD) : (V1 m ρ c main_v17 : S128x256.Idx → EReal)
    = extractStridedSlice S128x256 ![0, 0] (at0 m c main_arg8) slices_S257x256_S128x256_0_0 := by
  show StableHlo.after hostOps0 (W0 m ρ c) (Proc.devRef .tc main_v17) = _
  after_results

theorem V1_v18 (c : Dev nD) : (V1 m ρ c main_v18 : S128x256.Idx → EReal)
    = extractStridedSlice S128x256 ![128, 0] (at0 m c main_arg8) slices_S257x256_S128x256_128_0 := by
  show StableHlo.after hostOps0 (W0 m ρ c) (Proc.devRef .tc main_v18) = _
  after_results

theorem V1_v19 (c : Dev nD) : (V1 m ρ c main_v19 : S1x256.Idx → EReal)
    = extractStridedSlice S1x256 ![256, 0] (at0 m c main_arg8) slices_S257x256_S1x256_256_0 := by
  show StableHlo.after hostOps0 (W0 m ρ c) (Proc.devRef .tc main_v19) = _
  after_results

theorem V1_arg9 (c : Dev nD) : (V1 m ρ c main_arg9 : S256.Idx → EReal) = at0 m c main_arg9 := by
  show StableHlo.after hostOps0 (W0 m ρ c) (Proc.devRef .tc main_arg9) = _
  after_results

theorem V1_arg10 (c : Dev nD) : (V1 m ρ c main_arg10 : S256x256.Idx → EReal) = at0 m c main_arg10 := by
  show StableHlo.after hostOps0 (W0 m ρ c) (Proc.devRef .tc main_arg10) = _
  after_results

theorem V1_arg11 (c : Dev nD) : (V1 m ρ c main_arg11 : S256.Idx → EReal) = at0 m c main_arg11 := by
  show StableHlo.after hostOps0 (W0 m ρ c) (Proc.devRef .tc main_arg11) = _
  after_results

/-! ## The edge call's two results, of the launch arrays -/

/-- The forward messages: sources \`from\`, targets \`to\`, the forward network. -/
theorem fwd_eq (c : Dev nD) :
    EdgeArray.fwdMsgs (V1 m ρ) c = messages (at0 m c main_arg0) (at0 m c main_arg1) (at0 m c main_arg2) (at0 m c main_arg3)
      (at0 m c main_arg4) (at0 m c main_arg5) (at0 m c main_arg6) (at0 m c main_arg7) := by
  unfold messages
  show edgeMsgs (n := 800000) (V1 m ρ c main_v6) (V1 m ρ c main_v13) (V1 m ρ c main_arg1) (V1 m ρ c main_v14)
    (V1 m ρ c main_v15) (V1 m ρ c main_v16) (V1 m ρ c main_arg5) (V1 m ρ c main_arg6) (V1 m ρ c main_arg7) = _
  rw [V1_v6, V1_v13, V1_arg1, V1_v14, V1_v15, V1_v16, V1_arg5, V1_arg6, V1_arg7]

/-- The reverse messages: sources \`to\`, targets \`from\`, the reverse network. -/
theorem rev_eq (c : Dev nD) :
    EdgeArray.revMsgs (V1 m ρ) c = messages (at0 m c main_arg0) (at0 m c main_arg1) (at0 m c main_arg3) (at0 m c main_arg2)
      (at0 m c main_arg8) (at0 m c main_arg9) (at0 m c main_arg10) (at0 m c main_arg11) := by
  unfold messages
  show edgeMsgs (n := 800000) (V1 m ρ c main_v13) (V1 m ρ c main_v6) (V1 m ρ c main_arg1) (V1 m ρ c main_v17)
    (V1 m ρ c main_v18) (V1 m ρ c main_v19) (V1 m ρ c main_arg9) (V1 m ρ c main_arg10) (V1 m ρ c main_arg11) = _
  rw [V1_v13, V1_v6, V1_arg1, V1_v17, V1_v18, V1_v19, V1_arg9, V1_arg10, V1_arg11]

/-! ## After the edge call -/

theorem W2_fwd (c : Dev nD) : (W2 m ρ c (Proc.devRef .tc main_v20_0) : S800000x256.Idx → EReal)
    = messages (at0 m c main_arg0) (at0 m c main_arg1) (at0 m c main_arg2) (at0 m c main_arg3)
      (at0 m c main_arg4) (at0 m c main_arg5) (at0 m c main_arg6) (at0 m c main_arg7) :=
  (W2_arr m ρ c 15).trans ((EdgeArray.final15 (V1 m ρ) c).trans (fwd_eq m ρ c))

theorem W2_rev (c : Dev nD) : (W2 m ρ c (Proc.devRef .tc main_v20_1) : S800000x256.Idx → EReal)
    = messages (at0 m c main_arg0) (at0 m c main_arg1) (at0 m c main_arg3) (at0 m c main_arg2)
      (at0 m c main_arg8) (at0 m c main_arg9) (at0 m c main_arg10) (at0 m c main_arg11) :=
  (W2_arr m ρ c 16).trans ((EdgeArray.final16 (V1 m ρ) c).trans (rev_eq m ρ c))

theorem W2_arg0 (c : Dev nD) : (W2 m ρ c (Proc.devRef .tc main_arg0) : S50000x128.Idx → EReal) = at0 m c main_arg0 :=
  (W2_of_ne m ρ c main_arg0 (by decide)).trans (by
    show StableHlo.after hostOps0 (W0 m ρ c) (Proc.devRef .tc main_arg0) = _
    after_results)

theorem W2_arg2 (c : Dev nD) : (W2 m ρ c (Proc.devRef .tc main_arg2) : S800000.Idx → BitVec 32) = at0 m c main_arg2 :=
  (W2_of_ne m ρ c main_arg2 (by decide)).trans (by
    show StableHlo.after hostOps0 (W0 m ρ c) (Proc.devRef .tc main_arg2) = _
    after_results)

theorem W2_arg3 (c : Dev nD) : (W2 m ρ c (Proc.devRef .tc main_arg3) : S800000.Idx → BitVec 32) = at0 m c main_arg3 :=
  (W2_of_ne m ρ c main_arg3 (by decide)).trans (by
    show StableHlo.after hostOps0 (W0 m ρ c) (Proc.devRef .tc main_arg3) = _
    after_results)

theorem W2_arg12 (c : Dev nD) : (W2 m ρ c (Proc.devRef .tc main_arg12) : S384x256.Idx → EReal) = at0 m c main_arg12 :=
  (W2_of_ne m ρ c main_arg12 (by decide)).trans (by
    show StableHlo.after hostOps0 (W0 m ρ c) (Proc.devRef .tc main_arg12) = _
    after_results)

theorem W2_arg13 (c : Dev nD) : (W2 m ρ c (Proc.devRef .tc main_arg13) : S256.Idx → EReal) = at0 m c main_arg13 :=
  (W2_of_ne m ρ c main_arg13 (by decide)).trans (by
    show StableHlo.after hostOps0 (W0 m ρ c) (Proc.devRef .tc main_arg13) = _
    after_results)

theorem W2_arg14 (c : Dev nD) : (W2 m ρ c (Proc.devRef .tc main_arg14) : S256x128.Idx → EReal) = at0 m c main_arg14 :=
  (W2_of_ne m ρ c main_arg14 (by decide)).trans (by
    show StableHlo.after hostOps0 (W0 m ρ c) (Proc.devRef .tc main_arg14) = _
    after_results)

theorem W2_arg15 (c : Dev nD) : (W2 m ρ c (Proc.devRef .tc main_arg15) : S128.Idx → EReal) = at0 m c main_arg15 :=
  (W2_of_ne m ρ c main_arg15 (by decide)).trans (by
    show StableHlo.after hostOps0 (W0 m ρ c) (Proc.devRef .tc main_arg15) = _
    after_results)

/-! ## The second stretch: what the node call finds -/

/-- The aggregate as the second stretch computes it, of the arrays the edge call left. -/
theorem V3_v27_after (c : Dev nD) : (V3 m ρ c main_v27 : S50000x256.Idx → EReal)
    = addf (F := Ideal) (φ := .f32)
        (aggregated (W2 m ρ c (Proc.devRef .tc main_arg3) : S800000.Idx → BitVec 32)
          (W2 m ρ c (Proc.devRef .tc main_v20_0) : S800000x256.Idx → EReal))
        (aggregated (W2 m ρ c (Proc.devRef .tc main_arg2) : S800000.Idx → BitVec 32)
          (W2 m ρ c (Proc.devRef .tc main_v20_1) : S800000x256.Idx → EReal)) := by
  show StableHlo.after hostOps1 (W2 m ρ c) (Proc.devRef .tc main_v27) = _
  unfold aggregated
  after_results

theorem V3_v27 (c : Dev nD) : (V3 m ρ c main_v27 : S50000x256.Idx → EReal)
    = aggregate (at0 m c main_arg0) (at0 m c main_arg1) (at0 m c main_arg2) (at0 m c main_arg3)
        (at0 m c main_arg4) (at0 m c main_arg5) (at0 m c main_arg6) (at0 m c main_arg7)
        (at0 m c main_arg8) (at0 m c main_arg9) (at0 m c main_arg10) (at0 m c main_arg11) := by
  rw [V3_v27_after, W2_arg3, W2_fwd, W2_arg2, W2_rev]
  rfl

theorem V3_arg0 (c : Dev nD) : (V3 m ρ c main_arg0 : S50000x128.Idx → EReal) = at0 m c main_arg0 :=
  (show StableHlo.after hostOps1 (W2 m ρ c) (Proc.devRef .tc main_arg0) = W2 m ρ c (Proc.devRef .tc main_arg0) by
    after_results).trans (W2_arg0 m ρ c)

theorem V3_v28 (c : Dev nD) : (V3 m ρ c main_v28 : S256x256.Idx → EReal)
    = extractStridedSlice S256x256 ![0, 0] (at0 m c main_arg12) slices_S384x256_S256x256_0_0 := by
  rw [← W2_arg12 m ρ c]
  show StableHlo.after hostOps1 (W2 m ρ c) (Proc.devRef .tc main_v28) = _
  after_results

theorem V3_v29 (c : Dev nD) : (V3 m ρ c main_v29 : S128x256.Idx → EReal)
    = extractStridedSlice S128x256 ![256, 0] (at0 m c main_arg12) slices_S384x256_S128x256_256_0 := by
  rw [← W2_arg12 m ρ c]
  show StableHlo.after hostOps1 (W2 m ρ c) (Proc.devRef .tc main_v29) = _
  after_results

theorem V3_arg13 (c : Dev nD) : (V3 m ρ c main_arg13 : S256.Idx → EReal) = at0 m c main_arg13 :=
  (show StableHlo.after hostOps1 (W2 m ρ c) (Proc.devRef .tc main_arg13) = W2 m ρ c (Proc.devRef .tc main_arg13) by
    after_results).trans (W2_arg13 m ρ c)

theorem V3_arg14 (c : Dev nD) : (V3 m ρ c main_arg14 : S256x128.Idx → EReal) = at0 m c main_arg14 :=
  (show StableHlo.after hostOps1 (W2 m ρ c) (Proc.devRef .tc main_arg14) = W2 m ρ c (Proc.devRef .tc main_arg14) by
    after_results).trans (W2_arg14 m ρ c)

theorem V3_arg15 (c : Dev nD) : (V3 m ρ c main_arg15 : S128.Idx → EReal) = at0 m c main_arg15 :=
  (show StableHlo.after hostOps1 (W2 m ρ c) (Proc.devRef .tc main_arg15) = W2 m ρ c (Proc.devRef .tc main_arg15) by
    after_results).trans (W2_arg15 m ρ c)

/-! ## The result -/

/-- The result array after the run is the layer of the launch arrays. -/
theorem result_eq (c : Dev nD) : (W4 m ρ c (Proc.devRef .tc main_v30) : S50000x128.Idx → EReal)
    = layer (at0 m c main_arg0) (at0 m c main_arg1) (at0 m c main_arg2) (at0 m c main_arg3)
        (at0 m c main_arg4) (at0 m c main_arg5) (at0 m c main_arg6) (at0 m c main_arg7)
        (at0 m c main_arg8) (at0 m c main_arg9) (at0 m c main_arg10) (at0 m c main_arg11)
        (at0 m c main_arg12) (at0 m c main_arg13) (at0 m c main_arg14) (at0 m c main_arg15) := by
  refine ((W4_arr m ρ c 7).trans (NodeArray.final7 (V3 m ρ) c)).trans ?_
  unfold layer
  show nodeUpd (n := 50000) (V3 m ρ c main_v27) (V3 m ρ c main_arg0) (V3 m ρ c main_v28) (V3 m ρ c main_v29)
    (V3 m ρ c main_arg13) (V3 m ρ c main_arg14) (V3 m ρ c main_arg15) = _
  rw [V3_v27, V3_arg0, V3_v28, V3_v29, V3_arg13, V3_arg14, V3_arg15]

/-- The run, read: every weakly fair execution terminates, nothing faulting, with the result array at the layer of
    the launch arrays and every argument as launched. -/
theorem run : θ_run defs (onTc (τ := τ) (main (F := Ideal))) ⟨m, fun _ => 0, ρ⟩ (fun r => ∀ c : Dev nD,
      r.2.mem ((c.tc : Thread nD τ).loc main_v30)
        = layer (at0 m c main_arg0) (at0 m c main_arg1) (at0 m c main_arg2) (at0 m c main_arg3)
            (at0 m c main_arg4) (at0 m c main_arg5) (at0 m c main_arg6) (at0 m c main_arg7)
            (at0 m c main_arg8) (at0 m c main_arg9) (at0 m c main_arg10) (at0 m c main_arg11)
            (at0 m c main_arg12) (at0 m c main_arg13) (at0 m c main_arg14) (at0 m c main_arg15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩)
    (RunValue.run_result (F := Ideal) m ρ)

end Cert.KernelIdeal.Whole

end
-- ==== Proof.NetLayout.lean ====
/-
  The two spellings of a network's first layer, as array operations.

  The reference concatenates the per-row operands along the row and multiplies by the whole first matrix; the
  kernel multiplies each operand by its own band of rows of that matrix, cut out by a slice. Read at coordinates, an
  entry of the concatenation is an entry of the piece its column falls in, and an entry of a band is the matrix's
  entry the band's offset further down. With those readings the specification's "joined = split" theorems apply
  to the operations themselves, for any number of rows.
-/
import Idealize.ShloMosaic.Lib.Pipeline.Value
import Idealize.ShloMosaic.Lib.ValueLayout
import proofs.«123507_j22874995818875_1_alg».proof.Proof.NetSpec

noncomputable section

namespace Cert.GraphNet

open Idealize.ShloMosaic Idealize.ShloMosaic.ValueIdx

variable {n : ℕ}

/-! ## A row of cat(a, b, e): 128 + 128 + 1 columns -/

theorem cat3_first (a b : (⟨2, ![n, 128]⟩ : Shape).Idx → EReal) (e : (⟨2, ![n, 1]⟩ : Shape).Idx → EReal)
    (h : Shape.Concatenates [⟨2, ![n, 128]⟩, ⟨2, ![n, 128]⟩, ⟨2, ![n, 1]⟩] ⟨2, ![n, 257]⟩ 1) (p : Fin n) (k : Fin 128) :
    concatenate ⟨2, ![n, 257]⟩ 1 [⟨⟨2, ![n, 128]⟩, a⟩, ⟨⟨2, ![n, 128]⟩, b⟩, ⟨⟨2, ![n, 1]⟩, e⟩] h
        (ix2 p (⟨k.val, by omega⟩ : Fin 257)) = a (ix2 p k) :=
  concatenate_apply_piece (t := ⟨2, ![n, 257]⟩) 1 [⟨⟨2, ![n, 128]⟩, a⟩, ⟨⟨2, ![n, 128]⟩, b⟩, ⟨⟨2, ![n, 1]⟩, e⟩] h (ix2 p (⟨k.val, by omega⟩ : Fin 257)) 0 (by show 0 < 3; omega) ⟨2, ![n, 128]⟩ a rfl rfl 0 rfl (ix2 p k)
    (fun ax hax => by
      match ax with
      | ⟨0, _⟩ => rfl
      | ⟨1, _⟩ => exact absurd rfl hax)
    (by show 0 + k.val = k.val; omega)

theorem cat3_second (a b : (⟨2, ![n, 128]⟩ : Shape).Idx → EReal) (e : (⟨2, ![n, 1]⟩ : Shape).Idx → EReal)
    (h : Shape.Concatenates [⟨2, ![n, 128]⟩, ⟨2, ![n, 128]⟩, ⟨2, ![n, 1]⟩] ⟨2, ![n, 257]⟩ 1) (p : Fin n) (k : Fin 128) :
    concatenate ⟨2, ![n, 257]⟩ 1 [⟨⟨2, ![n, 128]⟩, a⟩, ⟨⟨2, ![n, 128]⟩, b⟩, ⟨⟨2, ![n, 1]⟩, e⟩] h
        (ix2 p (⟨128 + k.val, by omega⟩ : Fin 257)) = b (ix2 p k) :=
  concatenate_apply_piece (t := ⟨2, ![n, 257]⟩) 1 [⟨⟨2, ![n, 128]⟩, a⟩, ⟨⟨2, ![n, 128]⟩, b⟩, ⟨⟨2, ![n, 1]⟩, e⟩] h (ix2 p (⟨128 + k.val, by omega⟩ : Fin 257)) 1 (by show 1 < 3; omega) ⟨2, ![n, 128]⟩ b rfl rfl 128 rfl (ix2 p k)
    (fun ax hax => by
      match ax with
      | ⟨0, _⟩ => rfl
      | ⟨1, _⟩ => exact absurd rfl hax)
    (by show 128 + k.val = 128 + k.val; rfl)

theorem cat3_third (a b : (⟨2, ![n, 128]⟩ : Shape).Idx → EReal) (e : (⟨2, ![n, 1]⟩ : Shape).Idx → EReal)
    (h : Shape.Concatenates [⟨2, ![n, 128]⟩, ⟨2, ![n, 128]⟩, ⟨2, ![n, 1]⟩] ⟨2, ![n, 257]⟩ 1) (p : Fin n) :
    concatenate ⟨2, ![n, 257]⟩ 1 [⟨⟨2, ![n, 128]⟩, a⟩, ⟨⟨2, ![n, 128]⟩, b⟩, ⟨⟨2, ![n, 1]⟩, e⟩] h
        (ix2 p (⟨256, by omega⟩ : Fin 257)) = e (ix2 p (0 : Fin 1)) :=
  concatenate_apply_piece (t := ⟨2, ![n, 257]⟩) 1 [⟨⟨2, ![n, 128]⟩, a⟩, ⟨⟨2, ![n, 128]⟩, b⟩, ⟨⟨2, ![n, 1]⟩, e⟩] h (ix2 p (⟨256, by omega⟩ : Fin 257)) 2 (by show 2 < 3; omega) ⟨2, ![n, 1]⟩ e rfl rfl 256 rfl (ix2 p (0 : Fin 1))
    (fun ax hax => by
      match ax with
      | ⟨0, _⟩ => rfl
      | ⟨1, _⟩ => exact absurd rfl hax)
    (by show 256 + 0 = 256; rfl)

/-! ## A row of cat(g, x): 256 + 128 columns -/

theorem cat2_first (g : (⟨2, ![n, 256]⟩ : Shape).Idx → EReal) (x : (⟨2, ![n, 128]⟩ : Shape).Idx → EReal)
    (h : Shape.Concatenates [⟨2, ![n, 256]⟩, ⟨2, ![n, 128]⟩] ⟨2, ![n, 384]⟩ 1) (p : Fin n) (k : Fin 256) :
    concatenate ⟨2, ![n, 384]⟩ 1 [⟨⟨2, ![n, 256]⟩, g⟩, ⟨⟨2, ![n, 128]⟩, x⟩] h (ix2 p (⟨k.val, by omega⟩ : Fin 384))
      = g (ix2 p k) :=
  concatenate_apply_piece (t := ⟨2, ![n, 384]⟩) 1 [⟨⟨2, ![n, 256]⟩, g⟩, ⟨⟨2, ![n, 128]⟩, x⟩] h (ix2 p (⟨k.val, by omega⟩ : Fin 384)) 0 (by show 0 < 2; omega) ⟨2, ![n, 256]⟩ g rfl rfl 0 rfl (ix2 p k)
    (fun ax hax => by
      match ax with
      | ⟨0, _⟩ => rfl
      | ⟨1, _⟩ => exact absurd rfl hax)
    (by show 0 + k.val = k.val; omega)

theorem cat2_second (g : (⟨2, ![n, 256]⟩ : Shape).Idx → EReal) (x : (⟨2, ![n, 128]⟩ : Shape).Idx → EReal)
    (h : Shape.Concatenates [⟨2, ![n, 256]⟩, ⟨2, ![n, 128]⟩] ⟨2, ![n, 384]⟩ 1) (p : Fin n) (k : Fin 128) :
    concatenate ⟨2, ![n, 384]⟩ 1 [⟨⟨2, ![n, 256]⟩, g⟩, ⟨⟨2, ![n, 128]⟩, x⟩] h (ix2 p (⟨256 + k.val, by omega⟩ : Fin 384))
      = x (ix2 p k) :=
  concatenate_apply_piece (t := ⟨2, ![n, 384]⟩) 1 [⟨⟨2, ![n, 256]⟩, g⟩, ⟨⟨2, ![n, 128]⟩, x⟩] h (ix2 p (⟨256 + k.val, by omega⟩ : Fin 384)) 1 (by show 1 < 2; omega) ⟨2, ![n, 128]⟩ x rfl rfl 256 rfl (ix2 p k)
    (fun ax hax => by
      match ax with
      | ⟨0, _⟩ => rfl
      | ⟨1, _⟩ => exact absurd rfl hax)
    (by show 256 + k.val = 256 + k.val; rfl)

/-! ## The two programs' edge network and node network -/

/-- The joined edge network on the concatenated rows is the split edge network on the pieces and the three bands
    of rows 0…127, 128…255 and 256 of the first matrix. -/
theorem edge_joined_eq_split (a b : (⟨2, ![n, 128]⟩ : Shape).Idx → EReal) (e : (⟨2, ![n, 1]⟩ : Shape).Idx → EReal)
    (W1 : (⟨2, ![257, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (hc : Shape.Concatenates [⟨2, ![n, 128]⟩, ⟨2, ![n, 128]⟩, ⟨2, ![n, 1]⟩] ⟨2, ![n, 257]⟩ 1)
    (ha : (⟨2, ![257, 256]⟩ : Shape).Slices ![0, 0] ⟨2, ![128, 256]⟩)
    (hb : (⟨2, ![257, 256]⟩ : Shape).Slices ![128, 0] ⟨2, ![128, 256]⟩)
    (he : (⟨2, ![257, 256]⟩ : Shape).Slices ![256, 0] ⟨2, ![1, 256]⟩) :
    edgeMsgsJoined (concatenate ⟨2, ![n, 257]⟩ 1 [⟨⟨2, ![n, 128]⟩, a⟩, ⟨⟨2, ![n, 128]⟩, b⟩, ⟨⟨2, ![n, 1]⟩, e⟩] hc) W1 b1 W2 b2
      = edgeMsgs a b e (extractStridedSlice ⟨2, ![128, 256]⟩ ![0, 0] W1 ha) (extractStridedSlice ⟨2, ![128, 256]⟩ ![128, 0] W1 hb)
          (extractStridedSlice ⟨2, ![1, 256]⟩ ![256, 0] W1 he) b1 W2 b2 :=
  edgeMsgs_joined a b e _ W1 _ _ _ b1 W2 b2 (cat3_first a b e hc) (cat3_second a b e hc) (cat3_third a b e hc)
    (fun k j => slice2_axis0_apply 0 W1 ha k j _ (by show k.val = 0 + k.val; omega))
    (fun k j => slice2_axis0_apply 128 W1 hb k j _ rfl)
    (fun j => slice2_axis0_apply 256 W1 he (0 : Fin 1) j _ rfl)

/-- The joined node network on the concatenated rows is the split node network on the pieces and the two bands of
    rows 0…255 and 256…383 of the first matrix. -/
theorem node_joined_eq_split (g : (⟨2, ![n, 256]⟩ : Shape).Idx → EReal) (x : (⟨2, ![n, 128]⟩ : Shape).Idx → EReal)
    (U1 : (⟨2, ![384, 256]⟩ : Shape).Idx → EReal) (c1 : (⟨1, ![256]⟩ : Shape).Idx → EReal)
    (U2 : (⟨2, ![256, 128]⟩ : Shape).Idx → EReal) (c2 : (⟨1, ![128]⟩ : Shape).Idx → EReal)
    (hc : Shape.Concatenates [⟨2, ![n, 256]⟩, ⟨2, ![n, 128]⟩] ⟨2, ![n, 384]⟩ 1)
    (ha : (⟨2, ![384, 256]⟩ : Shape).Slices ![0, 0] ⟨2, ![256, 256]⟩)
    (hb : (⟨2, ![384, 256]⟩ : Shape).Slices ![256, 0] ⟨2, ![128, 256]⟩) :
    nodeUpdJoined x (concatenate ⟨2, ![n, 384]⟩ 1 [⟨⟨2, ![n, 256]⟩, g⟩, ⟨⟨2, ![n, 128]⟩, x⟩] hc) U1 c1 U2 c2
      = nodeUpd g x (extractStridedSlice ⟨2, ![256, 256]⟩ ![0, 0] U1 ha) (extractStridedSlice ⟨2, ![128, 256]⟩ ![256, 0] U1 hb)
          c1 U2 c2 :=
  nodeUpd_joined g x _ U1 _ _ c1 U2 c2 (cat2_first g x hc) (cat2_second g x hc)
    (fun k j => slice2_axis0_apply 0 U1 ha k j _ (by show k.val = 0 + k.val; omega))
    (fun k j => slice2_axis0_apply 256 U1 hb k j _ rfl)

end Cert.GraphNet

end
-- ==== Proof.RefStages.lean ====
/-
  What the reference program computes: the same layer of its sixteen arguments.

  The reference's run ends with its result at a composed term of its arguments; that term is read here one stage at a
  time. Each of the three networks is: a product of concatenated rows with the whole first matrix, a bias row
  broadcast over the rows, the clamp at zero, the second product, its bias (and, for the node network, the residual
  sum). Read at an entry these are the specification's JOINED forms; the concatenations and the row bands of the
  first matrices then turn them into the SPLIT forms the kernel computes. The gathers and the scatter-adds stand
  around the networks exactly as in the kernel program.
-/
import proofs.«123507_j22874995818875_1_alg».proof.Proof.Gen.ReferenceIdeal.Run
import proofs.«123507_j22874995818875_1_alg».proof.Proof.Gen.ReferenceIdeal.Read
import proofs.«123507_j22874995818875_1_alg».proof.Proof.NetLayout
import proofs.«123507_j22874995818875_1_alg».proof.Proof.NetProgram

noncomputable section

namespace Cert.ReferenceIdeal.Stages

open Idealize.ShloMosaic Idealize.ShloMosaic.ValueIdx
open Cert.ReferenceIdeal Cert.ReferenceIdeal.Gen Cert.ReferenceIdeal.Read Cert.GraphNet

/-! ## The printed index maps, at coordinates

  Each product's operand indices at entry (p, q) and contraction index k are (p, k) and (k, q); a bias row
  broadcast over the rows is read at its column. -/

theorem lidx15 (p : Fin 800000) (q : Fin 256) (k : Fin 257) : lidx_main_v15 (ix2 p q) k = ix2 p k :=
  funext fun a => Fin.ext (by match a with | ⟨0, _⟩ => rfl | ⟨1, _⟩ => rfl)
theorem ridx15 (p : Fin 800000) (q : Fin 256) (k : Fin 257) : ridx_main_v15 (ix2 p q) k = ix2 k q :=
  funext fun a => Fin.ext (by match a with | ⟨0, _⟩ => rfl | ⟨1, _⟩ => rfl)
theorem bias17 (p : Fin 800000) (q : Fin 256) : idx_main_v16 (idx_main_v17 (ix2 p q)) = ix1 q :=
  funext fun a => Fin.ext (by match a with | ⟨0, _⟩ => rfl)
theorem lidx20 (p : Fin 800000) (q : Fin 256) (k : Fin 256) : lidx_main_v20 (ix2 p q) k = ix2 p k :=
  funext fun a => Fin.ext (by match a with | ⟨0, _⟩ => rfl | ⟨1, _⟩ => rfl)
theorem ridx20 (p : Fin 800000) (q : Fin 256) (k : Fin 256) : ridx_main_v20 (ix2 p q) k = ix2 k q :=
  funext fun a => Fin.ext (by match a with | ⟨0, _⟩ => rfl | ⟨1, _⟩ => rfl)
theorem bias22 (p : Fin 800000) (q : Fin 256) : idx_main_v21 (idx_main_v22 (ix2 p q)) = ix1 q :=
  funext fun a => Fin.ext (by match a with | ⟨0, _⟩ => rfl)

theorem lidx28 (p : Fin 800000) (q : Fin 256) (k : Fin 257) : lidx_main_v28 (ix2 p q) k = ix2 p k :=
  funext fun a => Fin.ext (by match a with | ⟨0, _⟩ => rfl | ⟨1, _⟩ => rfl)
theorem ridx28 (p : Fin 800000) (q : Fin 256) (k : Fin 257) : ridx_main_v28 (ix2 p q) k = ix2 k q :=
  funext fun a => Fin.ext (by match a with | ⟨0, _⟩ => rfl | ⟨1, _⟩ => rfl)
theorem bias30 (p : Fin 800000) (q : Fin 256) : idx_main_v29 (idx_main_v30 (ix2 p q)) = ix1 q :=
  funext fun a => Fin.ext (by match a with | ⟨0, _⟩ => rfl)
theorem lidx33 (p : Fin 800000) (q : Fin 256) (k : Fin 256) : lidx_main_v33 (ix2 p q) k = ix2 p k :=
  funext fun a => Fin.ext (by match a with | ⟨0, _⟩ => rfl | ⟨1, _⟩ => rfl)
theorem ridx33 (p : Fin 800000) (q : Fin 256) (k : Fin 256) : ridx_main_v33 (ix2 p q) k = ix2 k q :=
  funext fun a => Fin.ext (by match a with | ⟨0, _⟩ => rfl | ⟨1, _⟩ => rfl)
theorem bias35 (p : Fin 800000) (q : Fin 256) : idx_main_v34 (idx_main_v35 (ix2 p q)) = ix1 q :=
  funext fun a => Fin.ext (by match a with | ⟨0, _⟩ => rfl)

theorem lidx42 (p : Fin 50000) (q : Fin 256) (k : Fin 384) : lidx_main_v42 (ix2 p q) k = ix2 p k :=
  funext fun a => Fin.ext (by match a with | ⟨0, _⟩ => rfl | ⟨1, _⟩ => rfl)
theorem ridx42 (p : Fin 50000) (q : Fin 256) (k : Fin 384) : ridx_main_v42 (ix2 p q) k = ix2 k q :=
  funext fun a => Fin.ext (by match a with | ⟨0, _⟩ => rfl | ⟨1, _⟩ => rfl)
theorem bias44 (p : Fin 50000) (q : Fin 256) : idx_main_v43 (idx_main_v44 (ix2 p q)) = ix1 q :=
  funext fun a => Fin.ext (by match a with | ⟨0, _⟩ => rfl)
theorem lidx47 (p : Fin 50000) (q : Fin 128) (k : Fin 256) : lidx_main_v47 (ix2 p q) k = ix2 p k :=
  funext fun a => Fin.ext (by match a with | ⟨0, _⟩ => rfl | ⟨1, _⟩ => rfl)
theorem ridx47 (p : Fin 50000) (q : Fin 128) (k : Fin 256) : ridx_main_v47 (ix2 p q) k = ix2 k q :=
  funext fun a => Fin.ext (by match a with | ⟨0, _⟩ => rfl | ⟨1, _⟩ => rfl)
theorem bias49 (p : Fin 50000) (q : Fin 128) : idx_main_v48 (idx_main_v49 (ix2 p q)) = ix1 q :=
  funext fun a => Fin.ext (by match a with | ⟨0, _⟩ => rfl)

/-! ## The three networks, joined -/

variable (x0 : S50000x128.Idx → EReal) (x1 : S800000x1.Idx → EReal) (x2 x3 : S800000.Idx → BitVec 32)
  (x4 : S257x256.Idx → EReal) (x5 : S256.Idx → EReal) (x6 : S256x256.Idx → EReal) (x7 : S256.Idx → EReal)
  (x8 : S257x256.Idx → EReal) (x9 : S256.Idx → EReal) (x10 : S256x256.Idx → EReal) (x11 : S256.Idx → EReal)
  (x12 : S384x256.Idx → EReal) (x13 : S256.Idx → EReal) (x14 : S256x128.Idx → EReal) (x15 : S128.Idx → EReal)

/-- The forward messages are the joined edge network on the first concatenation. -/
theorem fwd_joined :
    val_main_v23 (F := Ideal) x0 x1 x2 x3 x4 x5 x6 x7
      = edgeMsgsJoined (n := 800000) (val_main_v14 (F := Ideal) x0 x1 x2 x3) x4 x5 x6 x7 := by
  funext i
  obtain ⟨p, q, rfl⟩ : ∃ (p : Fin 800000) (q : Fin 256), i = ix2 p q := ⟨i 0, i 1, eq_ix2 i⟩
  rw [edgeMsgsJoined_apply]
  unfold edgeOut edgePreJoined
  rw [val_main_v23_apply, val_main_v20_apply, val_main_v22_apply, val_main_v21_apply, bias22]
  show (∑ k : Fin 256, _) + _ = (∑ j : Fin 256, _) + _
  congr 1
  refine Finset.sum_congr rfl fun k _ => ?_
  rw [lidx20, ridx20, val_main_v19_apply, val_main_v18_apply, val_main_v15_apply, val_main_v17_apply, val_main_v16_apply,
    bias17, val_main_call0_v0_apply, val_main_call0_cst_apply]
  simp only [lidx15, ridx15]
  rfl

/-- The reverse messages are the joined edge network on the second concatenation. -/
theorem rev_joined :
    val_main_v36 (F := Ideal) x0 x1 x2 x3 x8 x9 x10 x11
      = edgeMsgsJoined (n := 800000) (val_main_v27 (F := Ideal) x0 x1 x2 x3) x8 x9 x10 x11 := by
  funext i
  obtain ⟨p, q, rfl⟩ : ∃ (p : Fin 800000) (q : Fin 256), i = ix2 p q := ⟨i 0, i 1, eq_ix2 i⟩
  rw [edgeMsgsJoined_apply]
  unfold edgeOut edgePreJoined
  rw [val_main_v36_apply, val_main_v33_apply, val_main_v35_apply, val_main_v34_apply, bias35]
  show (∑ k : Fin 256, _) + _ = (∑ j : Fin 256, _) + _
  congr 1
  refine Finset.sum_congr rfl fun k _ => ?_
  rw [lidx33, ridx33, val_main_v32_apply, val_main_v31_apply, val_main_v28_apply, val_main_v30_apply, val_main_v29_apply,
    bias30, val_main_call1_v0_apply, val_main_call1_cst_apply]
  simp only [lidx28, ridx28]
  rfl

/-- The result is the joined node network on the third concatenation. -/
theorem upd_joined :
    val_main_v51 (F := Ideal) x0 x1 x2 x3 x4 x5 x6 x7 x8 x9 x10 x11 x12 x13 x14 x15
      = nodeUpdJoined (n := 50000) x0 (val_main_v41 (F := Ideal) x0 x1 x2 x3 x4 x5 x6 x7 x8 x9 x10 x11) x12 x13 x14 x15 := by
  funext i
  obtain ⟨p, q, rfl⟩ : ∃ (p : Fin 50000) (q : Fin 128), i = ix2 p q := ⟨i 0, i 1, eq_ix2 i⟩
  rw [nodeUpdJoined_apply]
  unfold nodeOut nodePreJoined
  rw [val_main_v51_apply, val_main_v50_apply, val_main_v47_apply, val_main_v49_apply, val_main_v48_apply, bias49]
  refine congrArg (fun s : EReal => x0 (ix2 p q) + (s + x15 (ix1 q))) (Finset.sum_congr rfl fun k _ => ?_)
  rw [lidx47, ridx47, val_main_v46_apply, val_main_v45_apply, val_main_v42_apply, val_main_v44_apply, val_main_v43_apply,
    bias44, val_main_call2_v0_apply, val_main_call2_cst_apply]
  simp only [lidx42, ridx42]
  rfl

/-! ## The three networks, split; the whole layer -/

open Cert.KernelIdeal.Layer in
/-- The reference's result is the layer of its arguments. -/
theorem result_eq :
    val_main_v51 (F := Ideal) x0 x1 x2 x3 x4 x5 x6 x7 x8 x9 x10 x11 x12 x13 x14 x15
      = layer x0 x1 x2 x3 x4 x5 x6 x7 x8 x9 x10 x11 x12 x13 x14 x15 := by
  have hf : val_main_v23 (F := Ideal) x0 x1 x2 x3 x4 x5 x6 x7 = messages x0 x1 x2 x3 x4 x5 x6 x7 := by
    rw [fwd_joined]
    unfold val_main_v14
    exact edge_joined_eq_split (n := 800000) _ _ x1 x4 x5 x6 x7 _ _ _ _
  have hr : val_main_v36 (F := Ideal) x0 x1 x2 x3 x8 x9 x10 x11 = messages x0 x1 x3 x2 x8 x9 x10 x11 := by
    rw [rev_joined]
    unfold val_main_v27
    exact edge_joined_eq_split (n := 800000) _ _ x1 x8 x9 x10 x11 _ _ _ _
  have hg : val_main_v40 (F := Ideal) x0 x1 x2 x3 x4 x5 x6 x7 x8 x9 x10 x11
      = aggregate x0 x1 x2 x3 x4 x5 x6 x7 x8 x9 x10 x11 := by
    unfold val_main_v40 val_main_v26 val_main_v39
    rw [hf, hr]
    rfl
  rw [upd_joined]
  unfold val_main_v41
  rw [hg]
  exact node_joined_eq_split (n := 50000) _ x0 x12 x13 x14 x15 _ _ _

end Cert.ReferenceIdeal.Stages

end
-- ==== Proof.lean ====
/-
  One message-passing layer of a graph network (50 000 nodes with 128 features, 800 000 directed edges with one
  feature): a blocked kernel program against its whole-array reference, equal over the extended reals.

  Both programs gather the endpoint states of every edge, run a two-layer network on (source state, target state,
  edge feature) in the forward direction and a second one with the endpoints exchanged, sum the forward messages
  into their targets and the reverse messages into their sources, and update every node by a third two-layer network
  on (aggregate, state) with a residual sum. The reference concatenates each network's inputs and multiplies by the
  whole first matrix; the kernel program multiplies each input by its own band of rows of that matrix and adds the
  products — the edge networks in one call over blocks of 2000 edges, the node network in another over blocks of
  5000 nodes, in a narrower float format that is the identity at the ideal values. A sum over a concatenated axis
  is the sum of the pieces' sums: that one law of addition (commutative, associative; no finiteness needed) is
  the whole difference between the two programs. The gathers and scatter-adds are the same host operations applied
  to the same operands in both, and are never opened.

  The modules: NetSpec (the networks row by row, joined and split, and the law); LibDot, LibLayout (a plain
  product and a column broadcast at an entry); EdgeBlock, NodeBlock (each call's arithmetic on a block is the split
  network); EdgeArray, NodeArray (each call's result arrays, whole: its blocks tile them); NetProgram (the layer as
  one function of the sixteen arrays); KernelRun, KernelValue (the kernel program's run ends at the layer of its
  launch arrays); NetLayout, RefStages (so does the reference's). Here: the five claims.
-/
import proofs.«123507_j22874995818875_1_alg».proof.Defs
import proofs.«123507_j22874995818875_1_alg».proof.Proof.Gen.Kernel
import proofs.«123507_j22874995818875_1_alg».proof.Proof.Gen.Kernel.Skeleton
import proofs.«123507_j22874995818875_1_alg».proof.Proof.Gen.Kernel.Launch
import proofs.«123507_j22874995818875_1_alg».proof.Proof.Gen.Kernel.Points
import proofs.«123507_j22874995818875_1_alg».proof.Proof.Gen.Kernel.Frame
import proofs.«123507_j22874995818875_1_alg».proof.Proof.Gen.KernelIdeal
import proofs.«123507_j22874995818875_1_alg».proof.Proof.Gen.KernelIdeal.Skeleton
import proofs.«123507_j22874995818875_1_alg».proof.Proof.Gen.KernelIdeal.Launch
import proofs.«123507_j22874995818875_1_alg».proof.Proof.Gen.KernelIdeal.Points
import proofs.«123507_j22874995818875_1_alg».proof.Proof.Gen.KernelIdeal.Frame
import proofs.«123507_j22874995818875_1_alg».proof.Proof.Gen.ReferenceIdeal
import proofs.«123507_j22874995818875_1_alg».proof.Proof.Gen.ReferenceIdeal.Run
import proofs.«123507_j22874995818875_1_alg».proof.Proof.Gen.ReferenceIdeal.Read
import proofs.«123507_j22874995818875_1_alg».proof.Proof.Gen.Pre_finite_inputs
import proofs.«123507_j22874995818875_1_alg».proof.Proof.KernelValue
import proofs.«123507_j22874995818875_1_alg».proof.Proof.RefStages
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with their result at the layer of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Stages.result_eq]
  obtain ⟨h0, h1, h2, h3, h4, h5, h6, h7, h8, h9, h10, h11, h12, h13, h14, h15⟩ := hagree c
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
